-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S16384 : Shape := ⟨1, ![16384]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x1000 .f32) (main_arg1 : IVec S16384 32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 32 := constantI S_ 32 1000#32
  let main_v6 : IVec S16384 32 := broadcastInDim S16384 ![] bcast_S_S16384 main_c_1
  let main_v7 : IVec S16384 1 := cmpi .slt main_arg1 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S2x1x1 : Shape := ⟨3, ![2, 1, 1]⟩
abbrev S2x1x1000 : Shape := ⟨3, ![2, 1, 1000]⟩
abbrev S2048x1000 : Shape := ⟨2, ![2048, 1000]⟩
abbrev S2048x1 : Shape := ⟨2, ![2048, 1]⟩
abbrev S1x1x1 : Shape := ⟨3, ![1, 1, 1]⟩
abbrev S1x1x1000 : Shape := ⟨3, ![1, 1, 1000]⟩
abbrev S1x1 : Shape := ⟨2, ![1, 1]⟩
abbrev S1x1000 : Shape := ⟨2, ![1, 1000]⟩
abbrev S2048 : Shape := ⟨1, ![2048]⟩
abbrev S1 : Shape := ⟨1, ![1]⟩
abbrev S1000 : Shape := ⟨1, ![1000]⟩

abbrev nBuf : Space → Nat
  | .hbm => 48
  | .vmem => 10
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S16384, .i32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S2x1x1, .f32⟩
  | .hbm, ⟨12, _⟩ => ⟨S2x1x1000, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x1000, .f32⟩
  | .hbm, ⟨19, _⟩ => ⟨S1000, .f32⟩
  | .hbm, ⟨20, _⟩ => ⟨S_, .f32⟩
  | .hbm, ⟨21, _⟩ => ⟨S1000, .f32⟩
  | .hbm, ⟨22, _⟩ => ⟨S1000, .f32⟩
  | .hbm, ⟨23, _⟩ => ⟨S_, .f32⟩
  | .hbm, ⟨24, _⟩ => ⟨S1000, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S_, .f32⟩
  | .hbm, ⟨34, _⟩ => ⟨S16384, .f32⟩
  | .hbm, ⟨35, _⟩ => ⟨S1000, .f32⟩
  | .hbm, ⟨36, _⟩ => ⟨S_, .f32⟩
  | .hbm, ⟨37, _⟩ => ⟨S1000, .f32⟩
  | .hbm, ⟨38, _⟩ => ⟨S1000, .f32⟩
  | .hbm, ⟨39, _⟩ => ⟨S1000, .f32⟩
  | .hbm, ⟨40, _⟩ => ⟨S1000, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S2048x1000, .f32⟩
  | .local _ .vmem, ⟨1, _⟩ => ⟨S2048x1000, .f32⟩
  | .local _ .vmem, ⟨2, _⟩ => ⟨S2048x1, .i32⟩
  | .local _ .vmem, ⟨3, _⟩ => ⟨S2048x1, .i32⟩
  | .local _ .vmem, ⟨4, _⟩ => ⟨S1x1x1, .f32⟩
  | .local _ .vmem, ⟨5, _⟩ => ⟨S1x1x1, .f32⟩
  | .local _ .vmem, ⟨6, _⟩ => ⟨S1x1x1000, .f32⟩
  | .local _ .vmem, ⟨7, _⟩ => ⟨S1x1x1000, .f32⟩
  | .local _ .vmem, ⟨8, _⟩ => ⟨S1x1, .f32⟩
  | .local _ .vmem, ⟨9, _⟩ => ⟨S1x1000, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_cst : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_c_5 : Ref sig .tc := ⟨.hbm, 25, rfl⟩
abbrev main_v10 : Ref sig .tc := ⟨.hbm, 26, rfl⟩
abbrev main_v11 : Ref sig .tc := ⟨.hbm, 27, rfl⟩
abbrev main_c_6 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_v17 : Ref sig .tc := ⟨.hbm, 35, rfl⟩
abbrev main_cst_8 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_9 : Ref sig .tc := ⟨.hbm, 41, rfl⟩
abbrev main_v22 : Ref sig .tc := ⟨.hbm, 42, rfl⟩
abbrev main_cst_10 : Ref sig .tc := ⟨.hbm, 43, rfl⟩
abbrev main_v23 : Ref sig .tc := ⟨.hbm, 44, rfl⟩
abbrev main_cst_11 : Ref sig .tc := ⟨.hbm, 45, rfl⟩
abbrev main_v24 : Ref sig .tc := ⟨.hbm, 46, rfl⟩
abbrev main_v25 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S16384 : S_.BroadcastsInDim S16384 (![] : Fin 0 → Fin S16384.rank)
  shapeCasts_S16384_S16384x1 : S16384.ShapeCasts S16384x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  inb_S2048x1000_S2048x1000_0_0 : ∀ a, (![0, 0] : Fin 2 → Nat) a + S2048x1000.size a ≤ S2048x1000.size a
  h_S2048x1000 : 0 < S2048x1000.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1000_d1_w32 : S2048x1000.Iotas .tc 32 [1]
  broadcasts_S2048x1_S2048x1000 : S2048x1.Broadcasts S2048x1000
  reduces_S2048x1000_S2048 : S2048x1000.Reduces [1] S2048
  shapeCasts_S2048_S2048x1 : S2048.ShapeCasts S2048x1
  reduces_S2048x1_S1 : S2048x1.Reduces [0] S1
  shapeCasts_S1_S1x1 : S1.ShapeCasts S1x1
  reduces_S2048x1000_S1000 : S2048x1000.Reduces [0] S1000
  shapeCasts_S1000_S1x1000 : S1000.ShapeCasts S1x1000
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S1x1000_S1x1x1000 : S1x1000.ShapeCasts S1x1x1000
  inb_S1x1x1000_S1x1x1000_0_0_0 : ∀ a, (![0, 0, 0] : Fin 3 → Nat) a + S1x1x1000.size a ≤ S1x1x1000.size a
  h_S1x1x1000 : 0 < S1x1x1000.numel
  reducesTo_S2x1x1_S_d0_1_2 : S2x1x1.ReducesTo [0, 1, 2] S_
  h_S_ : 0 < S_.numel
  reducesTo_S2x1x1000_S1x1000_d0 : S2x1x1000.ReducesTo [0] S1x1000
  shapeCasts_S1x1000_S1000 : S1x1000.ShapeCasts S1000
  bcast_S_S1000 : S_.BroadcastsInDim S1000 (![] : Fin 0 → Fin S1000.rank)
  bcast_S16384_S16384x1_0 : S16384.BroadcastsInDim S16384x1 (![0] : Fin 1 → Fin S16384x1.rank)
  reducesTo_S1000_S_d0 : S1000.ReducesTo [0] S_
  scatter_S1000_S16384x1_S16384_n_0_0_1_wf : ScatterDims.WF S1000 S16384x1 S16384 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1000.size a ≤ S16384x1000.size a
  hwx0_0 : ∀ i : grid0.Coords, EltTy.bits .f32 = 32 ∨ (Rect.block (s := S16384x1000) S2048x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .i32 = 32 ∨ (Rect.block (s := S16384x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1000.size a ≤ S2x1x1000.size a
  hwx0_3 : ∀ i : grid0.Coords, EltTy.bits .f32 = 32 ∨ (Rect.block (s := S2x1x1000) S1x1x1000.size (cc0_transform_3 i) (hinb0_3 i)).WholeWords (EltTy.packing .f32)

variable [Facts₀]

def scatter_S1000_S16384x1_S16384_n_0_0_1 : ScatterDims S1000 S16384x1 S16384 where
  updateWindowDims := []
  insertedWindowDims := [0]
  scatterDimsToOperandDims := [0]
  indexVectorDim := 1
  wf := scatter_S1000_S16384x1_S16384_n_0_0_1_wf

abbrev win0_0 : Pipeline.Window sig grid0 :=
  Pipeline.Window.ofSpec (Memref.whole main_arg0) S2048x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x1000 : Shape := ⟨2, ![16384, 1000]⟩
abbrev S16384 : Shape := ⟨1, ![16384]⟩
abbrev S16384x1 : Shape := ⟨2, ![16384, 1]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S1000 : Shape := ⟨1, ![1000]⟩

abbrev nBuf : Space → Nat
  | .hbm => 70
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S16384x1000, .f32⟩
  | .hbm, ⟨3, _⟩ => ⟨S16384x1, .i32⟩
  | .hbm, ⟨4, _⟩ => ⟨S_, .i32⟩
  | .hbm, ⟨5, _⟩ => ⟨S16384x1, .i32⟩
  | .hbm, ⟨6, _⟩ => ⟨S16384x1, .i1⟩
  | .hbm, ⟨7, _⟩ => ⟨S_, .i32⟩
  | .hbm, ⟨8, _⟩ => ⟨S16384x1, .i32⟩
  | .hbm, ⟨9, _⟩ => ⟨S16384x1, .i32⟩
  | .hbm, ⟨10, _⟩ => ⟨S16384x1, .i32⟩
  | .hbm, ⟨11, _⟩ => ⟨S16384x1x1, .i32⟩
  | .hbm, ⟨12, _⟩ => ⟨S1, .i32⟩
  | .hbm, ⟨13, _⟩ => ⟨S_, .i32⟩
  | .hbm, ⟨14, _⟩ => ⟨S16384x1x1, .i32⟩
  | .hbm, ⟨15, _⟩ => ⟨S16384x1x1, .i1⟩
  | .hbm, ⟨16, _⟩ => ⟨S1x1x1, .i32⟩
  | .hbm, ⟨17, _⟩ => ⟨S16384x1x1, .i32⟩
  | .hbm, ⟨18, _⟩ => ⟨S16384x1x1, .i1⟩
  | .hbm, ⟨19, _⟩ => ⟨S16384x1x1, .i1⟩
  | .hbm, ⟨20, _⟩ => ⟨S_, .i1⟩
  | .hbm, ⟨21, _⟩ => ⟨S16384x1, .i1⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1000, .f32⟩
  | .hbm, ⟨42, _⟩ => ⟨S_, .f32⟩
  | .hbm, ⟨43, _⟩ => ⟨S1000, .f32⟩
  | .hbm, ⟨44, _⟩ => ⟨S1000, .f32⟩
  | .hbm, ⟨45, _⟩ => ⟨S_, .f32⟩
  | .hbm, ⟨46, _⟩ => ⟨S1000, .f32⟩
  | .hbm, ⟨47, _⟩ => ⟨S_, .i32⟩
  | .hbm, ⟨48, _⟩ => ⟨S16384, .i32⟩
  | .hbm, ⟨49, _⟩ => ⟨S16384, .i1⟩
  | .hbm, ⟨50, _⟩ => ⟨S_, .i32⟩
  | .hbm, ⟨51, _⟩ => ⟨S16384, .i32⟩
  | .hbm, ⟨52, _⟩ => ⟨S16384, .i32⟩
  | .hbm, ⟨53, _⟩ => ⟨S16384, .i32⟩
  | .hbm, ⟨54, _⟩ => ⟨S16384x1, .i32⟩
  | .hbm, ⟨55, _⟩ => ⟨S_, .f32⟩
  | .hbm, ⟨56, _⟩ => ⟨S16384, .f32⟩
  | .hbm, ⟨57, _⟩ => ⟨S1000, .f32⟩
  | .hbm, ⟨58, _⟩ => ⟨S_, .f32⟩
  | .hbm, ⟨59, _⟩ => ⟨S1000, .f32⟩
  | .hbm, ⟨60, _⟩ => ⟨S1000, .f32⟩
  | .hbm, ⟨61, _⟩ => ⟨S1000, .f32⟩
  | .hbm, ⟨62, _⟩ => ⟨S1000, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_cst_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_cst_3 : Ref sig .tc := ⟨.hbm, 40, rfl⟩
abbrev main_v13 : Ref sig .tc := ⟨.hbm, 41, rfl⟩
abbrev main_cst_4 : Ref sig .tc := ⟨.hbm, 42, rfl⟩
abbrev main_v14 : Ref sig .tc := ⟨.hbm, 43, rfl⟩
abbrev main_v15 : Ref sig .tc := ⟨.hbm, 44, rfl⟩
abbrev main_cst_5 : Ref sig .tc := ⟨.hbm, 45, rfl⟩
abbrev main_v16 : Ref sig .tc := ⟨.hbm, 46, rfl⟩
abbrev main_c : Ref sig .tc := ⟨.hbm, 47, rfl⟩
abbrev main_v17 : Ref sig .tc := ⟨.hbm, 48, rfl⟩
abbrev main_v18 : Ref sig .tc := ⟨.hbm, 49, rfl⟩
abbrev main_c_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_7 : Ref sig .tc := ⟨.hbm, 55, rfl⟩
abbrev main_v23 : Ref sig .tc := ⟨.hbm, 56, rfl⟩
abbrev main_v24 : Ref sig .tc := ⟨.hbm, 57, rfl⟩
abbrev main_cst_8 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_9 : Ref sig .tc := ⟨.hbm, 63, rfl⟩
abbrev main_v29 : Ref sig .tc := ⟨.hbm, 64, rfl⟩
abbrev main_cst_10 : Ref sig .tc := ⟨.hbm, 65, rfl⟩
abbrev main_v30 : Ref sig .tc := ⟨.hbm, 66, rfl⟩
abbrev main_cst_11 : Ref sig .tc := ⟨.hbm, 67, rfl⟩
abbrev main_v31 : Ref sig .tc := ⟨.hbm, 68, rfl⟩
abbrev main_v32 : Ref sig .tc := ⟨.hbm, 69, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  shapeCasts_S16384x1_S16384 : S16384x1.ShapeCasts S16384
  bcast_S_S16384 : S_.BroadcastsInDim S16384 (![] : Fin 0 → Fin S16384.rank)
  reducesTo_S16384_S_d0 : S16384.ReducesTo [0] S_
  reducesTo_S16384x1000_S1000_d0 : S16384x1000.ReducesTo [0] S1000
  bcast_S_S1000 : S_.BroadcastsInDim S1000 (![] : Fin 0 → Fin S1000.rank)
  reducesTo_S1000_S_d0 : S1000.ReducesTo [0] S_
  gather_S16384x1000_S16384x1x1_S16384x1_n_1_0_0_1_2_11_wf : GatherDims.WF S16384x1000 S16384x1x1 S16384x1 [] [1] [0] [1] [0] 2 ![1, 1]
  scatter_S1000_S16384x1_S16384_n_0_0_1_wf : ScatterDims.WF S1000 S16384x1 S16384 [] [0] [0] 1

variable [Facts₀]

def gather_S16384x1000_S16384x1x1_S16384x1_n_1_0_0_1_2_11 : GatherDims S16384x1000 S16384x1x1 S16384x1 where
  offsetDims := []
  collapsedSliceDims := [1]
  operandBatchingDims := [0]
  startIndicesBatchingDims := [0]
  startIndexMap := [1]
  indexVectorDim := 2
  sliceSizes := ![1, 1]
  wf := gather_S16384x1000_S16384x1x1_S16384x1_n_1_0_0_1_2_11_wf
def scatter_S1000_S16384x1_S16384_n_0_0_1 : ScatterDims S1000 S16384x1 S16384 where
  updateWindowDims := []
  insertedWindowDims := [0]
  scatterDimsToOperandDims := [0]
  indexVectorDim := 1
  wf := scatter_S1000_S16384x1_S16384_n_0_0_1_wf

class Facts : Prop extends Facts₀ where

variable [Facts]
-- ==== Proof.KernelPieces.lean ====
/-
  What each control case of the kernel body leaves in the two accumulators it carries from grid point to grid point
  and, at a core's last point, in the two output blocks — read back from the stores the generated runs found.

  Three cases. At a core's first point (k = 0) both accumulators are first set to zero and then updated, so they end at
  the update of the zero block. At the middle points (k = 1, 2) and at the last one (k = 3) they end at the update of
  what the point before left. The update of the scalar accumulator adds the tile's focal sum (`k0_pay5`), that of
  the row accumulator adds the tile's column sums (`k0_pay6`). At k = 3 the body also copies both accumulators,
  reshaped, into the output blocks (`k0_pay1`, `k0_pay2`). Every statement is generic in the float instance.
-/
import proofs.«427627_j19370302505551_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every store and load of the body starts at the origin of its buffer. -/
theorem hz2 : (![0, 0] : Fin 2 → Nat) = fun _ => 0 := funext fun a => by fin_cases a <;> rfl
theorem hz3 : (![0, 0, 0] : Fin 3 → Nat) = fun _ => 0 := funext fun a => by fin_cases a <;> rfl

/-- First point of a core: the scalar accumulator ends at the update of the zero block. -/
theorem accL_first (c : Dev nD) (i : grid0.Coords) (arg2 : Memref sig .tc .vmem S2048x1000 .f32) (harg2 : arg2.IsWhole) (arg3 : Memref sig .tc .vmem S2048x1 .i32) (harg3 : arg3.IsWhole) (arg4 : Memref sig .tc .vmem S1x1x1 .f32) (harg4 : arg4.IsWhole) (arg5 : Memref sig .tc .vmem S1x1x1000 .f32) (harg5 : arg5.IsWhole) (arg6 : Memref sig .tc .vmem S1x1 .f32) (harg6 : arg6.IsWhole) (arg7 : Memref sig .tc .vmem S1x1000 .f32) (harg7 : arg7.IsWhole) (hc0 : cond0_0 i) (hc1 : ¬cond0_1 i)
    (x0 : Vec F S2048x1000 .f32) (x1 : Vec F S2048x1 .i32) :
    sout0_A_0 c i arg2 harg2 arg3 harg3 arg4 harg4 arg5 harg5 arg6 harg6 arg7 harg7 hc0 hc1 x0 x1 = k0_pay5 x0 x1 (k0_pay3 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x1) hz2]
  simp only [View.readAt_eq_ld, harg2.read_unread, harg3.read_unread, harg6.read_unread, harg7.read_unread,
    View.readCov_unit_zero (S := S1x1) _ hz2, View.readCov_unit_zero (S := S1x1000) _ hz2,
    View.ld_unit_zero (S := S2048x1000) hz2, View.ld_unit_zero (S := S2048x1) hz2, View.ld_unit_zero (S := S1x1) hz2, View.ld_unit_zero (S := S1x1000) hz2]

/-- First point of a core: the row accumulator ends at the update of the zero row. -/
theorem accC_first (c : Dev nD) (i : grid0.Coords) (arg2 : Memref sig .tc .vmem S2048x1000 .f32) (harg2 : arg2.IsWhole) (arg3 : Memref sig .tc .vmem S2048x1 .i32) (harg3 : arg3.IsWhole) (arg4 : Memref sig .tc .vmem S1x1x1 .f32) (harg4 : arg4.IsWhole) (arg5 : Memref sig .tc .vmem S1x1x1000 .f32) (harg5 : arg5.IsWhole) (arg6 : Memref sig .tc .vmem S1x1 .f32) (harg6 : arg6.IsWhole) (arg7 : Memref sig .tc .vmem S1x1000 .f32) (harg7 : arg7.IsWhole) (hc0 : cond0_0 i) (hc1 : ¬cond0_1 i)
    (x0 : Vec F S2048x1000 .f32) (x1 : Vec F S2048x1 .i32) :
    sout0_A_1 c i arg2 harg2 arg3 harg3 arg4 harg4 arg5 harg5 arg6 harg6 arg7 harg7 hc0 hc1 x0 x1 = k0_pay6 x0 (k0_pay4 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x1000) hz2]
  simp only [View.readAt_eq_ld, harg2.read_unread, harg3.read_unread, harg6.read_unread, harg7.read_unread,
    View.readCov_unit_zero (S := S1x1) _ hz2, View.readCov_unit_zero (S := S1x1000) _ hz2,
    View.ld_unit_zero (S := S2048x1000) hz2, View.ld_unit_zero (S := S2048x1) hz2, View.ld_unit_zero (S := S1x1) hz2, View.ld_unit_zero (S := S1x1000) hz2]

/-- A middle point: the scalar accumulator ends at the update of what the point before left. -/
theorem accL_mid (c : Dev nD) (i : grid0.Coords) (arg2 : Memref sig .tc .vmem S2048x1000 .f32) (harg2 : arg2.IsWhole) (arg3 : Memref sig .tc .vmem S2048x1 .i32) (harg3 : arg3.IsWhole) (arg4 : Memref sig .tc .vmem S1x1x1 .f32) (harg4 : arg4.IsWhole) (arg5 : Memref sig .tc .vmem S1x1x1000 .f32) (harg5 : arg5.IsWhole) (arg6 : Memref sig .tc .vmem S1x1 .f32) (harg6 : arg6.IsWhole) (arg7 : Memref sig .tc .vmem S1x1000 .f32) (harg7 : arg7.IsWhole) (hc0 : ¬cond0_0 i) (hc1 : ¬cond0_1 i)
    (x0 : Vec F S2048x1000 .f32) (x1 : Vec F S2048x1 .i32) (xs0 : Vec F S1x1 .f32) (xs1 : Vec F S1x1000 .f32) :
    sout0_B_0 c i arg2 harg2 arg3 harg3 arg4 harg4 arg5 harg5 arg6 harg6 arg7 harg7 hc0 hc1 x0 x1 xs0 xs1 = k0_pay5 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread,
    View.readCov_unit_zero (S := S1x1) _ hz2, View.readCov_unit_zero (S := S1x1000) _ hz2,
    View.ld_unit_zero (S := S2048x1000) hz2, View.ld_unit_zero (S := S2048x1) hz2, View.ld_unit_zero (S := S1x1) hz2, View.ld_unit_zero (S := S1x1000) hz2]

/-- A middle point: the row accumulator ends at the update of what the point before left. -/
theorem accC_mid (c : Dev nD) (i : grid0.Coords) (arg2 : Memref sig .tc .vmem S2048x1000 .f32) (harg2 : arg2.IsWhole) (arg3 : Memref sig .tc .vmem S2048x1 .i32) (harg3 : arg3.IsWhole) (arg4 : Memref sig .tc .vmem S1x1x1 .f32) (harg4 : arg4.IsWhole) (arg5 : Memref sig .tc .vmem S1x1x1000 .f32) (harg5 : arg5.IsWhole) (arg6 : Memref sig .tc .vmem S1x1 .f32) (harg6 : arg6.IsWhole) (arg7 : Memref sig .tc .vmem S1x1000 .f32) (harg7 : arg7.IsWhole) (hc0 : ¬cond0_0 i) (hc1 : ¬cond0_1 i)
    (x0 : Vec F S2048x1000 .f32) (x1 : Vec F S2048x1 .i32) (xs0 : Vec F S1x1 .f32) (xs1 : Vec F S1x1000 .f32) :
    sout0_B_1 c i arg2 harg2 arg3 harg3 arg4 harg4 arg5 harg5 arg6 harg6 arg7 harg7 hc0 hc1 x0 x1 xs0 xs1 = k0_pay6 x0 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread,
    View.readCov_unit_zero (S := S1x1) _ hz2, View.readCov_unit_zero (S := S1x1000) _ hz2,
    View.ld_unit_zero (S := S2048x1000) hz2, View.ld_unit_zero (S := S2048x1) hz2, View.ld_unit_zero (S := S1x1) hz2, View.ld_unit_zero (S := S1x1000) hz2]

/-- Last point of a core: the scalar accumulator, as at a middle point. -/
theorem accL_last (c : Dev nD) (i : grid0.Coords) (arg2 : Memref sig .tc .vmem S2048x1000 .f32) (harg2 : arg2.IsWhole) (arg3 : Memref sig .tc .vmem S2048x1 .i32) (harg3 : arg3.IsWhole) (arg4 : Memref sig .tc .vmem S1x1x1 .f32) (harg4 : arg4.IsWhole) (arg5 : Memref sig .tc .vmem S1x1x1000 .f32) (harg5 : arg5.IsWhole) (arg6 : Memref sig .tc .vmem S1x1 .f32) (harg6 : arg6.IsWhole) (arg7 : Memref sig .tc .vmem S1x1000 .f32) (harg7 : arg7.IsWhole) (hc0 : ¬cond0_0 i) (hc1 : cond0_1 i)
    (x0 : Vec F S2048x1000 .f32) (x1 : Vec F S2048x1 .i32) (xs0 : Vec F S1x1 .f32) (xs1 : Vec F S1x1000 .f32) :
    sout0_C_0 c i arg2 harg2 arg3 harg3 arg4 harg4 arg5 harg5 arg6 harg6 arg7 harg7 hc0 hc1 x0 x1 xs0 xs1 = k0_pay5 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread,
    View.readCov_unit_zero (S := S1x1) _ hz2, View.readCov_unit_zero (S := S1x1000) _ hz2,
    View.ld_unit_zero (S := S2048x1000) hz2, View.ld_unit_zero (S := S2048x1) hz2, View.ld_unit_zero (S := S1x1) hz2, View.ld_unit_zero (S := S1x1000) hz2]

/-- Last point of a core: the row accumulator, as at a middle point. -/
theorem accC_last (c : Dev nD) (i : grid0.Coords) (arg2 : Memref sig .tc .vmem S2048x1000 .f32) (harg2 : arg2.IsWhole) (arg3 : Memref sig .tc .vmem S2048x1 .i32) (harg3 : arg3.IsWhole) (arg4 : Memref sig .tc .vmem S1x1x1 .f32) (harg4 : arg4.IsWhole) (arg5 : Memref sig .tc .vmem S1x1x1000 .f32) (harg5 : arg5.IsWhole) (arg6 : Memref sig .tc .vmem S1x1 .f32) (harg6 : arg6.IsWhole) (arg7 : Memref sig .tc .vmem S1x1000 .f32) (harg7 : arg7.IsWhole) (hc0 : ¬cond0_0 i) (hc1 : cond0_1 i)
    (x0 : Vec F S2048x1000 .f32) (x1 : Vec F S2048x1 .i32) (xs0 : Vec F S1x1 .f32) (xs1 : Vec F S1x1000 .f32) :
    sout0_C_1 c i arg2 harg2 arg3 harg3 arg4 harg4 arg5 harg5 arg6 harg6 arg7 harg7 hc0 hc1 x0 x1 xs0 xs1 = k0_pay6 x0 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread,
    View.readCov_unit_zero (S := S1x1) _ hz2, View.readCov_unit_zero (S := S1x1000) _ hz2,
    View.ld_unit_zero (S := S2048x1000) hz2, View.ld_unit_zero (S := S2048x1) hz2, View.ld_unit_zero (S := S1x1) hz2, View.ld_unit_zero (S := S1x1000) hz2]

/-- Last point of a core: the first output block is the updated scalar accumulator, reshaped. -/
theorem outL_last (c : Dev nD) (i : grid0.Coords) (arg2 : Memref sig .tc .vmem S2048x1000 .f32) (harg2 : arg2.IsWhole) (arg3 : Memref sig .tc .vmem S2048x1 .i32) (harg3 : arg3.IsWhole) (arg4 : Memref sig .tc .vmem S1x1x1 .f32) (harg4 : arg4.IsWhole) (arg5 : Memref sig .tc .vmem S1x1x1000 .f32) (harg5 : arg5.IsWhole) (arg6 : Memref sig .tc .vmem S1x1 .f32) (harg6 : arg6.IsWhole) (arg7 : Memref sig .tc .vmem S1x1000 .f32) (harg7 : arg7.IsWhole) (hc0 : ¬cond0_0 i) (hc1 : cond0_1 i)
    (x0 : Vec F S2048x1000 .f32) (x1 : Vec F S2048x1 .i32) (xs0 : Vec F S1x1 .f32) (xs1 : Vec F S1x1000 .f32) :
    out0_C_2 c i arg2 harg2 arg3 harg3 arg4 harg4 arg5 harg5 arg6 harg6 arg7 harg7 hc0 hc1 x0 x1 xs0 xs1 = k0_pay1 (k0_pay5 x0 x1 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readAt_eq_ld, harg2.read_unread, harg3.read_unread, harg6.read_unread, harg7.read_unread,
    View.readCov_unit_zero (S := S1x1) _ hz2, View.readCov_unit_zero (S := S1x1000) _ hz2,
    View.ld_unit_zero (S := S2048x1000) hz2, View.ld_unit_zero (S := S2048x1) hz2, View.ld_unit_zero (S := S1x1) hz2, View.ld_unit_zero (S := S1x1000) hz2]

/-- Last point of a core: the second output block is the updated row accumulator, reshaped. -/
theorem outC_last (c : Dev nD) (i : grid0.Coords) (arg2 : Memref sig .tc .vmem S2048x1000 .f32) (harg2 : arg2.IsWhole) (arg3 : Memref sig .tc .vmem S2048x1 .i32) (harg3 : arg3.IsWhole) (arg4 : Memref sig .tc .vmem S1x1x1 .f32) (harg4 : arg4.IsWhole) (arg5 : Memref sig .tc .vmem S1x1x1000 .f32) (harg5 : arg5.IsWhole) (arg6 : Memref sig .tc .vmem S1x1 .f32) (harg6 : arg6.IsWhole) (arg7 : Memref sig .tc .vmem S1x1000 .f32) (harg7 : arg7.IsWhole) (hc0 : ¬cond0_0 i) (hc1 : cond0_1 i)
    (x0 : Vec F S2048x1000 .f32) (x1 : Vec F S2048x1 .i32) (xs0 : Vec F S1x1 .f32) (xs1 : Vec F S1x1000 .f32) :
    out0_C_3 c i arg2 harg2 arg3 harg3 arg4 harg4 arg5 harg5 arg6 harg6 arg7 harg7 hc0 hc1 x0 x1 xs0 xs1 = k0_pay2 (k0_pay6 x0 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readAt_eq_ld, harg2.read_unread, harg3.read_unread, harg6.read_unread, harg7.read_unread,
    View.readCov_unit_zero (S := S1x1) _ hz2, View.readCov_unit_zero (S := S1x1000) _ hz2,
    View.ld_unit_zero (S := S2048x1000) hz2, View.ld_unit_zero (S := S2048x1) hz2, View.ld_unit_zero (S := S1x1) hz2, View.ld_unit_zero (S := S1x1000) hz2]

end Cert.KernelIdeal.Pieces

end
-- ==== Proof.RowLoss.lean ====
/-
  The per-row focal term on the extended reals, in the two spellings the programs use, and the one law that joins
  them. The kernel forms  (0 - (1 - p)) · log p  from the probability p it picked out of the row; the reference takes
  l = log p first, recovers p as exp l, and forms  -((1 - exp l) ^ 1) · l.  For p > 0 the two are the same real
  number (exp (log p) = p, x ^ 1 = x). For a finite p ≤ 0 the logarithm is -∞ on both sides, exp (-∞) = 0, and both
  products are a negative real times -∞, that is +∞. So the two agree at every finite p.
-/
import Idealize.ShloMosaic.PureOps.Ideal

noncomputable section

namespace Cert.Focal

open Idealize.ShloMosaic

/-- The word of `1.0` denotes the real 1. -/
theorem ofBits_one : Ideal.ofBits .f32 0x3F800000#32 = 1 := by
  simp [Ideal.ofBits, Ideal.ieee, -EReal.coe_mul]; norm_num

/-- The word of `+0.0` denotes 0. -/
theorem ofBits_zero : Ideal.ofBits .f32 0x00000000#32 = 0 := by
  simp [Ideal.ofBits, Ideal.ieee]

/-- The kernel's row term: `(0 - (1 - p)) · log p`. -/
def rowK (p : EReal) : EReal := (0 - (1 - p)) * Ideal.log p

/-- The reference's row term from the logarithm `l` it gathered: `-((1 - exp l) ^ 1) · l`. -/
def rowL (l : EReal) : EReal := (-(Ideal.pow (1 - Ideal.exp l) 1)) * l

/-- At every finite `p` the reference's term at `log p` is the kernel's term at `p`. -/
theorem rowL_log_eq_rowK (p : ℝ) : rowL (Ideal.log (p : EReal)) = rowK (p : EReal) := by
  unfold rowL rowK
  by_cases hp : p ≤ 0
  · -- the logarithm is -∞; both factors in front of it are negative reals
    have hlog : Ideal.log (p : EReal) = ⊥ := by rw [Ideal.log_coe, if_pos hp]
    rw [hlog]
    have h1 : (1 : EReal) - Ideal.exp ⊥ = ((1 : ℝ) : EReal) := by rw [Ideal.exp_bot, sub_zero]; rfl
    have h2 : Ideal.pow ((1 : ℝ) : EReal) 1 = ((1 : ℝ) : EReal) := by
      rw [show (1 : EReal) = ((1 : ℝ) : EReal) from rfl, Ideal.pow_coe_coe]
      simp
    rw [h1, h2]
    have h3 : (0 : EReal) - (1 - (p : EReal)) = ((p - 1 : ℝ) : EReal) := by
      rw [show (1 : EReal) = ((1 : ℝ) : EReal) from rfl, show (0 : EReal) = ((0 : ℝ) : EReal) from rfl,
        ← EReal.coe_sub, ← EReal.coe_sub]
      congr 1; ring
    rw [h3, ← EReal.coe_neg, EReal.coe_mul_bot_of_neg (by norm_num), EReal.coe_mul_bot_of_neg (by linarith)]
  · -- p > 0: exp (log p) = p and x ^ 1 = x
    have hp' : 0 < p := lt_of_not_ge hp
    have hlog : Ideal.log (p : EReal) = ((Real.log p : ℝ) : EReal) := by rw [Ideal.log_coe, if_neg hp]
    rw [hlog]
    have hexp : Ideal.exp ((Real.log p : ℝ) : EReal) = ((p : ℝ) : EReal) := by
      rw [Ideal.exp_coe, Real.exp_log hp']
    rw [hexp]
    have h1 : (1 : EReal) - (p : EReal) = ((1 - p : ℝ) : EReal) := by
      rw [show (1 : EReal) = ((1 : ℝ) : EReal) from rfl, ← EReal.coe_sub]
    rw [h1, show (1 : EReal) = ((1 : ℝ) : EReal) from rfl, Ideal.pow_coe_coe]
    have h2 : Real.rpow (1 - p) 1 = 1 - p := Real.rpow_one _
    rw [h2, show (0 : EReal) = ((0 : ℝ) : EReal) from rfl, ← EReal.coe_sub, ← EReal.coe_neg]
    congr 2; ring

end Cert.Focal

end
-- ==== Proof.Spec.lean ====
/-
  The quantities both programs compute, as plain sums over the rows of the probability table.

  `probs` is a 16384 × 1000 table of extended reals and `targets` a vector of 16384 class words. For row r the
  probability the target names is written the way a masked row sum finds it: the sum over the classes c of the entry
  (r, c) where the word of c is the row's target and of 0 elsewhere; when the target is a class exactly one term
  survives. The focal total is the sum over the rows of the row term at that probability, and the confidence of
  class j is the sum over the rows of column j.
-/
import Idealize.ShloMosaic.Lib.ValueIdx
import proofs.«427627_j19370302505551_3_alg».proof.Proof.RowLoss

noncomputable section

namespace Cert.Focal

open Idealize.ShloMosaic Idealize.ShloMosaic.ValueIdx

/-- The probability table's shape and the target vector's. -/
abbrev SP : Shape := ⟨2, ![16384, 1000]⟩
abbrev ST : Shape := ⟨1, ![16384]⟩

/-- The entry of row `r` that the row's target names, as the masked row sum. -/
def pSel (P : SP.Idx → EReal) (T : ST.Idx → BitVec 32) (r : Fin 16384) : EReal :=
  ∑ c : Fin 1000, if BitVec.ofNat 32 c.val = T (ix1 r) then P (ix2 r c) else 0

/-- The focal total: the row term at the selected probability, summed over the rows. -/
def lossTotal (P : SP.Idx → EReal) (T : ST.Idx → BitVec 32) : EReal :=
  ∑ r : Fin 16384, rowK (pSel P T r)

/-- The confidence total of class `j`: column `j` summed over the rows. -/
def colTotal (P : SP.Idx → EReal) (j : Fin 1000) : EReal :=
  ∑ r : Fin 16384, P (ix2 r j)

/-- When the row's target is the class `k`, the masked row sum is the entry at `k`. -/
theorem pSel_eq (P : SP.Idx → EReal) (T : ST.Idx → BitVec 32) (r : Fin 16384) (k : Fin 1000)
    (hk : T (ix1 r) = BitVec.ofNat 32 k.val) : pSel P T r = P (ix2 r k) := by
  unfold pSel
  rw [Finset.sum_eq_single k]
  · rw [if_pos hk.symm]
  · intro c _ hc
    rw [if_neg]
    intro h
    apply hc
    have h2 : BitVec.ofNat 32 c.val = BitVec.ofNat 32 k.val := h.trans hk
    have h3 := congrArg BitVec.toNat h2
    simp only [BitVec.toNat_ofNat] at h3
    have hc' : c.val < 1000 := c.isLt
    have hk' : k.val < 1000 := k.isLt
    apply Fin.ext
    omega
  · intro h; exact absurd (Finset.mem_univ k) h

end Cert.Focal

end
-- ==== Proof.KernelPayload.lean ====
/-
  The kernel body's arithmetic on one tile, read at an index on the extended reals.

  A tile is 2048 rows of the probability table with their 2048 target words. The scalar accumulator's update adds, to
  what the accumulator held, the sum over the tile's rows of the row term at the masked row sum (the entries of the
  row where the class word equals the row's target word, 0 elsewhere). The row accumulator's update adds to entry j
  the sum over the tile's rows of column j. The two resets store zeros, and the two copies into the output blocks
  only change the shape.
-/
import proofs.«427627_j19370302505551_3_alg».proof.Proof.Gen.KernelIdeal.Skeleton
import proofs.«427627_j19370302505551_3_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Cert.Focal
open Idealize.ShloMosaic Idealize.ShloMosaic.ValueIdx

/-- The masked row sum of row `r` of a tile. -/
def tileSel (x0 : FVec Ideal S2048x1000 .f32) (x1 : IVec S2048x1 32) (r : Fin 2048) : EReal :=
  ∑ c : Fin 1000, if BitVec.ofNat 32 c.val = x1 (ix2 r 0) then x0 (ix2 r c) else 0

/-- A lane sum along the class axis of a tile, at row `r`. -/
theorem laneSum (v : FVec Ideal S2048x1000 .f32) (h : S2048x1000.Reduces [1] S2048) (hφ : FKind.Formats .f32)
    (hacc : (0x00000000#32 : BitVec 32) = 0x00000000#32) (r : Fin 2048) :
    multiReduction .add [1] S2048 v 0x00000000#32 h hφ hacc (ix1 r) = ∑ c : Fin 1000, v (ix2 r c) := by
  refine (Ideal.multiReduction_add_single v 0x00000000#32 h hφ hacc (ix1 r)).trans ?_
  refine Finset.sum_congr rfl fun c _ => congrArg v ?_
  exact funext fun a => Fin.ext (by match a with | ⟨0, _⟩ => rfl | ⟨1, _⟩ => rfl)

/-- A sum down the rows of a one-column tile. -/
theorem colSum1 (v : FVec Ideal S2048x1 .f32) (h : S2048x1.Reduces [0] S1) (hφ : FKind.Formats .f32)
    (hacc : (0x00000000#32 : BitVec 32) = 0x00000000#32) (j : S1.Idx) :
    multiReduction .add [0] S1 v 0x00000000#32 h hφ hacc j = ∑ r : Fin 2048, v (ix2 r 0) := by
  refine (Ideal.multiReduction_add_single v 0x00000000#32 h hφ hacc j).trans ?_
  refine Finset.sum_congr rfl fun r _ => congrArg v ?_
  exact funext fun a => Fin.ext (by
    match a with
    | ⟨0, _⟩ => rfl
    | ⟨1, _⟩ => have hj : (j 0).val < 1 := (j 0).isLt; show (j 0).val = 0; omega)

/-- A sum down the rows of a tile, at column `c`. -/
theorem colSum (v : FVec Ideal S2048x1000 .f32) (h : S2048x1000.Reduces [0] S1000) (hφ : FKind.Formats .f32)
    (hacc : (0x00000000#32 : BitVec 32) = 0x00000000#32) (c : Fin 1000) :
    multiReduction .add [0] S1000 v 0x00000000#32 h hφ hacc (ix1 c) = ∑ r : Fin 2048, v (ix2 r c) := by
  refine (Ideal.multiReduction_add_single v 0x00000000#32 h hφ hacc (ix1 c)).trans ?_
  refine Finset.sum_congr rfl fun r _ => congrArg v ?_
  exact funext fun a => Fin.ext (by match a with | ⟨0, _⟩ => rfl | ⟨1, _⟩ => rfl)

/-- The reset of the scalar accumulator stores zero. -/
theorem pay3_apply (y : S1x1.Idx) : k0_pay3 (F := Ideal) y = 0 := by
  unfold k0_pay3
  rw [shapeCast_self]
  exact ofBits_zero

/-- The reset of the row accumulator stores zeros. -/
theorem pay4_apply (y : S1x1000.Idx) : k0_pay4 (F := Ideal) y = 0 := by
  unfold k0_pay4
  rw [shapeCast_self]
  exact ofBits_zero

/-- The row accumulator's update: entry `j` gains the tile's column `j`. -/
theorem pay6_apply (x0 : FVec Ideal S2048x1000 .f32) (xs : FVec Ideal S1x1000 .f32) (j : Fin 1000) :
    k0_pay6 (F := Ideal) x0 xs (ix2 0 j) = xs (ix2 0 j) + ∑ r : Fin 2048, x0 (ix2 r j) := by
  unfold k0_pay6
  rw [shapeCast_self]
  show xs (ix2 0 j) + shapeCast S1x1000 (multiReduction .add [0] S1000 x0 0x00000000#32 _ _ _) _ (ix2 0 j) = _
  rw [shapeCast_apply _ _ (ix2 0 j) (ix1 j) (by
    rewrite [Shape.rowMajor_val_one, Shape.rowMajor_val_two]; show j.val = 0 * 1000 + j.val; omega)]
  rw [colSum]

/-- The scalar accumulator's update: it gains the tile's focal sum. -/
theorem pay5_apply (x0 : FVec Ideal S2048x1000 .f32) (x1 : IVec S2048x1 32) (xs : FVec Ideal S1x1 .f32) (y : S1x1.Idx) :
    k0_pay5 (F := Ideal) x0 x1 xs y = xs y + ∑ r : Fin 2048, rowK (tileSel x0 x1 r) := by
  unfold k0_pay5
  rw [shapeCast_self, shapeCast_self]
  show xs y + shapeCast S1x1 (multiReduction .add [0] S1 _ 0x00000000#32 _ _ _) _ y = _
  rw [shapeCast_apply _ _ y (ix1 0) (by
    have h0 := (y 0).isLt; have h1 := (y 1).isLt
    rewrite [Shape.rowMajor_val_one, Shape.rowMajor_val_two]; show 0 = (y 0).val * 1 + (y 1).val
    have h0' : (y 0).val < 1 := h0
    have h1' : (y 1).val < 1 := h1
    omega)]
  rw [colSum1]
  refine congrArg (xs y + ·) (Finset.sum_congr rfl fun r _ => ?_)
  -- the row term of row r at the masked row sum
  show (Ideal.ofBits .f32 0x00000000#32 - (Ideal.ofBits .f32 0x3F800000#32 - _)) * Ideal.log _ = rowK (tileSel x0 x1 r)
  have hsel : shapeCast S2048x1 (multiReduction .add [1] S2048
        (select (cmpi .eq (iota .tc S2048x1000 32 [1] iota_S2048x1000_d1_w32)
          (broadcastTo S2048x1000 x1 broadcasts_S2048x1_S2048x1000)) x0
          (broadcast S2048x1000 (Scalar.ofBits .f32 0x00000000#32))) 0x00000000#32 reduces_S2048x1000_S2048 (.inl rfl) rfl)
        shapeCasts_S2048_S2048x1 (ix2 r 0) = tileSel x0 x1 r := by
    rw [shapeCast_apply _ _ (ix2 r 0) (ix1 r) (by
      rewrite [Shape.rowMajor_val_one, Shape.rowMajor_val_two]; show r.val = r.val * 1 + 0; omega)]
    rw [laneSum]
    unfold tileSel
    refine Finset.sum_congr rfl fun c _ => ?_
    show Scalar.select (IntOp.cmpi .eq (iota .tc S2048x1000 32 [1] iota_S2048x1000_d1_w32 (ix2 r c))
      (broadcastTo S2048x1000 x1 broadcasts_S2048x1_S2048x1000 (ix2 r c))) (x0 (ix2 r c)) (Ideal.ofBits .f32 0x00000000#32) = _
    rw [broadcastTo_apply x1 broadcasts_S2048x1_S2048x1000 (ix2 r c) (ix2 r 0) (fun a => by
      match a with
      | ⟨0, _⟩ => rfl
      | ⟨1, _⟩ => rfl)]
    have hi : iota .tc S2048x1000 32 [1] iota_S2048x1000_d1_w32 (ix2 r c) = BitVec.ofNat 32 c.val := by
      show BitVec.ofNat 32 (0 * 1000 + c.val) = _
      rw [Nat.zero_mul, Nat.zero_add]
    rw [hi, ofBits_zero]
    unfold Scalar.select IntOp.cmpi
    by_cases he : BitVec.ofNat 32 c.val = x1 (ix2 r 0)
    · rw [if_pos he, if_pos]; simp [he]
    · rw [if_neg he, if_neg]
      rw [show (BitVec.ofNat 32 c.val == x1 (ix2 r 0)) = false from by simpa using he]
      show ¬BitVec.ofBool false = 1#1
      decide
  rw [hsel, ofBits_zero, ofBits_one]
  rfl

/-- The copies into the output blocks keep the values. -/
theorem pay1_apply (v : FVec Ideal S1x1 .f32) (y : S1x1x1.Idx) : k0_pay1 (F := Ideal) v y = v (ix2 0 0) := by
  unfold k0_pay1
  exact shapeCast_apply v shapeCasts_S1x1_S1x1x1 y (ix2 0 0) (by
    have h0 : (y 0).val < 1 := (y 0).isLt
    have h1 : (y 1).val < 1 := (y 1).isLt
    have h2 : (y 2).val < 1 := (y 2).isLt
    rewrite [Shape.rowMajor_val_two, Shape.rowMajor_val_three]
    show 0 * 1 + 0 = ((y 0).val * 1 + (y 1).val) * 1 + (y 2).val; omega)

theorem pay2_apply (v : FVec Ideal S1x1000 .f32) (y : S1x1x1000.Idx) :
    k0_pay2 (F := Ideal) v y = v (ix2 0 (y 2)) := by
  unfold k0_pay2
  exact shapeCast_apply v shapeCasts_S1x1000_S1x1x1000 y (ix2 0 (y 2)) (by
    have h0 : (y 0).val < 1 := (y 0).isLt
    have h1 : (y 1).val < 1 := (y 1).isLt
    rewrite [Shape.rowMajor_val_two, Shape.rowMajor_val_three]
    show 0 * 1000 + (y 2).val = ((y 0).val * 1 + (y 1).val) * 1000 + (y 2).val; omega)

end Cert.KernelIdeal.Payload

end
-- ==== Proof.KernelValue.lean ====
/-
  What the kernel's region leaves in its two result arrays, on the extended reals.

  The grid has 8 points, t = 4·core + k. At each point the body sees tile t: rows 2048·t … 2048·t + 2047 of the
  probability table and of the (clipped) target column. Write L(t) for the tile's focal sum and C(t, j) for its sum
  of column j. The two accumulators carried between points restart at k = 0, so after point t they hold
  L(4·core) + … + L(t) and C(4·core, j) + … + C(t, j): an induction on the point over the three control cases. At
  k = 3 the body copies them into the core's output blocks, which are written back there and nowhere else, so the
  result arrays end holding, at core c, the accumulators after point 4c + 3.
-/
import proofs.«427627_j19370302505551_3_alg».proof.Proof.Gen.KernelIdeal.Frame
import proofs.«427627_j19370302505551_3_alg».proof.Proof.KernelPieces
import proofs.«427627_j19370302505551_3_alg».proof.Proof.KernelPayload
import Idealize.ShloMosaic.Lib.Pipeline.Value

noncomputable section

namespace Cert.KernelIdeal.KValue

open Cert.KernelIdeal Cert.KernelIdeal.Gen Cert.KernelIdeal.Pieces Cert.KernelIdeal.Payload Cert.Focal
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- Tile `t` of the probability table and of the target column, as the body finds them. -/
abbrev pblk (c : Dev nD) (t : Fin cfg0.N) : FVec Ideal S2048x1000 .f32 := iblk m c 0 t
abbrev tblk (c : Dev nD) (t : Fin cfg0.N) : IVec S2048x1 32 := iblk m c 1 t

/-- The focal sum of tile `t`, and its sum of column `j`. -/
def tileL (c : Dev nD) (t : Fin cfg0.N) : EReal := ∑ r : Fin 2048, rowK (tileSel (pblk m c t) (tblk m c t) r)
def tileC (c : Dev nD) (t : Fin cfg0.N) (j : Fin 1000) : EReal := ∑ r : Fin 2048, pblk m c t (ix2 r j)

/-- The scalar accumulator after point `n`: restarted at the points ≡ 0 (mod 4), else what it held plus the tile's. -/
def accL (c : Dev nD) : (n : ℕ) → n < cfg0.N → EReal
  | 0, h => tileL m c ⟨0, h⟩
  | n + 1, h => if (n + 1) % 4 = 0 then tileL m c ⟨n + 1, h⟩ else accL c n (Nat.lt_of_succ_lt h) + tileL m c ⟨n + 1, h⟩

/-- The row accumulator's entry `j` after point `n`, likewise. -/
def accC (c : Dev nD) : (n : ℕ) → n < cfg0.N → Fin 1000 → EReal
  | 0, h => tileC m c ⟨0, h⟩
  | n + 1, h => fun j => if (n + 1) % 4 = 0 then tileC m c ⟨n + 1, h⟩ j else accC c n (Nat.lt_of_succ_lt h) j + tileC m c ⟨n + 1, h⟩ j

theorem accL_congr (c : Dev nD) (n n' : ℕ) (h : n < cfg0.N) (h' : n' < cfg0.N) (e : n = n') : accL m c n h = accL m c n' h' := by
  subst e; rfl
theorem accC_congr (c : Dev nD) (n n' : ℕ) (h : n < cfg0.N) (h' : n' < cfg0.N) (e : n = n') (j : Fin 1000) : accC m c n h j = accC m c n' h' j := by
  subst e; rfl

/-- THE INVARIANT, scalar accumulator: what the body leaves in it after point `n` is the running sum. -/
theorem accL_inv (c : Dev nD) : ∀ (n : ℕ) (h : n < cfg0.N) (y : S1x1.Idx), (outsAt0 m c n h).2.2.1 y = accL m c n h
  | 0, h, y => by
    rw [outsAt0_A m c ⟨0, h⟩ rfl (by show ¬ (0 % 4 = 3); decide)]
    dsimp only
    rw [accL_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) _ _ (iblk m c 0 ⟨0, h⟩) (iblk m c 1 ⟨0, h⟩)]
    refine (pay5_apply (pblk m c ⟨0, h⟩) (tblk m c ⟨0, h⟩) (k0_pay3 (F := Ideal)) y).trans ?_
    rw [pay3_apply, zero_add]; rfl
  | n + 1, h, y => by
    have hN : cfg0.N = 8 := N_0
    by_cases h0 : (n + 1) % 4 = 0
    · have h1 : ¬ (n + 1) % 4 = 3 := by omega
      rw [outsAt0_A m c ⟨n + 1, h⟩ h0 h1]
      dsimp only
      rw [accL_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩)]
      refine (pay5_apply (pblk m c ⟨n + 1, h⟩) (tblk m c ⟨n + 1, h⟩) (k0_pay3 (F := Ideal)) y).trans ?_
      rw [pay3_apply, zero_add]
      show tileL m c ⟨n + 1, h⟩ = (if (n + 1) % 4 = 0 then tileL m c ⟨n + 1, h⟩ else accL m c n (Nat.lt_of_succ_lt h) + tileL m c ⟨n + 1, h⟩)
      rw [if_pos h0]
    · by_cases h1 : (n + 1) % 4 = 3
      · rw [outsAt0_C m c ⟨n + 1, h⟩ h0 h1]
        dsimp only
        rw [accL_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) _ _]
        refine (pay5_apply (pblk m c ⟨n + 1, h⟩) (tblk m c ⟨n + 1, h⟩) _ y).trans ?_
        show (outsAt0 m c n _).2.2.1 y + tileL m c ⟨n + 1, h⟩ = (if (n + 1) % 4 = 0 then tileL m c ⟨n + 1, h⟩ else accL m c n (Nat.lt_of_succ_lt h) + tileL m c ⟨n + 1, h⟩)
        rw [if_neg h0, accL_inv c n _ y]
      · rw [outsAt0_B m c ⟨n + 1, h⟩ h0 h1]
        dsimp only
        rw [accL_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) _ _]
        refine (pay5_apply (pblk m c ⟨n + 1, h⟩) (tblk m c ⟨n + 1, h⟩) _ y).trans ?_
        show (outsAt0 m c n _).2.2.1 y + tileL m c ⟨n + 1, h⟩ = (if (n + 1) % 4 = 0 then tileL m c ⟨n + 1, h⟩ else accL m c n (Nat.lt_of_succ_lt h) + tileL m c ⟨n + 1, h⟩)
        rw [if_neg h0, accL_inv c n _ y]

/-- THE INVARIANT, row accumulator. -/
theorem accC_inv (c : Dev nD) : ∀ (n : ℕ) (h : n < cfg0.N) (j : Fin 1000), (outsAt0 m c n h).2.2.2 (ix2 0 j) = accC m c n h j
  | 0, h, j => by
    rw [outsAt0_A m c ⟨0, h⟩ rfl (by show ¬ (0 % 4 = 3); decide)]
    dsimp only
    rw [accC_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) _ _ (iblk m c 0 ⟨0, h⟩) (iblk m c 1 ⟨0, h⟩)]
    refine (pay6_apply (pblk m c ⟨0, h⟩) (k0_pay4 (F := Ideal)) j).trans ?_
    rw [pay4_apply, zero_add]; rfl
  | n + 1, h, j => by
    have hN : cfg0.N = 8 := N_0
    by_cases h0 : (n + 1) % 4 = 0
    · have h1 : ¬ (n + 1) % 4 = 3 := by omega
      rw [outsAt0_A m c ⟨n + 1, h⟩ h0 h1]
      dsimp only
      rw [accC_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩)]
      refine (pay6_apply (pblk m c ⟨n + 1, h⟩) (k0_pay4 (F := Ideal)) j).trans ?_
      rw [pay4_apply, zero_add]
      show tileC m c ⟨n + 1, h⟩ j = (if (n + 1) % 4 = 0 then tileC m c ⟨n + 1, h⟩ j else accC m c n (Nat.lt_of_succ_lt h) j + tileC m c ⟨n + 1, h⟩ j)
      rw [if_pos h0]
    · by_cases h1 : (n + 1) % 4 = 3
      · rw [outsAt0_C m c ⟨n + 1, h⟩ h0 h1]
        dsimp only
        rw [accC_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) _ _]
        refine (pay6_apply (pblk m c ⟨n + 1, h⟩) _ j).trans ?_
        show (outsAt0 m c n _).2.2.2 (ix2 0 j) + tileC m c ⟨n + 1, h⟩ j = (if (n + 1) % 4 = 0 then tileC m c ⟨n + 1, h⟩ j else accC m c n (Nat.lt_of_succ_lt h) j + tileC m c ⟨n + 1, h⟩ j)
        rw [if_neg h0, accC_inv c n _ j]
      · rw [outsAt0_B m c ⟨n + 1, h⟩ h0 h1]
        dsimp only
        rw [accC_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) _ _]
        refine (pay6_apply (pblk m c ⟨n + 1, h⟩) _ j).trans ?_
        show (outsAt0 m c n _).2.2.2 (ix2 0 j) + tileC m c ⟨n + 1, h⟩ j = (if (n + 1) % 4 = 0 then tileC m c ⟨n + 1, h⟩ j else accC m c n (Nat.lt_of_succ_lt h) j + tileC m c ⟨n + 1, h⟩ j)
        rw [if_neg h0, accC_inv c n _ j]

/-! ## The output blocks, and the result arrays after the region -/

/-- The printed index maps, decided over the grid: tile `t` of the inputs, block `t / 4` of the outputs. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-- At a core's last point the first output block holds the scalar accumulator. -/
theorem out2_at (c : Dev nD) (t : Fin cfg0.N) (h3 : t.val % 4 = 3) (y : S1x1x1.Idx) :
    (outsAt0 m c t.val t.isLt).1 y = accL m c t.val t.isLt := by
  have h0 : ¬ t.val % 4 = 0 := by omega
  have e := accL_inv m c t.val t.isLt (ix2 0 0)
  rw [outsAt0_C m c t h0 h3] at e ⊢
  dsimp only at e ⊢
  rw [accL_last c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) _ _] at e
  rw [outL_last c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) _ _]
  exact (pay1_apply _ y).trans e

/-- At a core's last point the second output block holds the row accumulator. -/
theorem out3_at (c : Dev nD) (t : Fin cfg0.N) (h3 : t.val % 4 = 3) (y : S1x1x1000.Idx) :
    (outsAt0 m c t.val t.isLt).2.1 y = accC m c t.val t.isLt (y 2) := by
  have h0 : ¬ t.val % 4 = 0 := by omega
  have e := accC_inv m c t.val t.isLt (y 2)
  rw [outsAt0_C m c t h0 h3] at e ⊢
  dsimp only at e ⊢
  rw [accC_last c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) _ _] at e
  rw [outC_last c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) _ _]
  exact (pay2_apply _ y).trans e

/-- What the two result arrays end holding: at core `i 0`, the accumulators after that core's last point. -/
def G2 (c : Dev nD) : S2x1x1.Idx → EReal := fun i =>
  accL m c (4 * (i 0).val + 3) (by have h2 : (i 0).val < 2 := (i 0).isLt; have hN : cfg0.N = 8 := N_0; omega)
def G3 (c : Dev nD) : S2x1x1000.Idx → EReal := fun i =>
  accC m c (4 * (i 0).val + 3) (by have h2 : (i 0).val < 2 := (i 0).isLt; have hN : cfg0.N = 8 := N_0; omega) (i 2)

/-- What a writing-back point writes into the first result array is its block of `G2`. -/
theorem flushed2_eq (c : Dev nD) (t : Fin cfg0.N) (hf : (cfg0.win 2).flush t = true) :
    (dats m 0 c).flushed 2 t = ((cfg0.win 2).blk t).view.read (Elt Ideal) (G2 m c) := by
  have h3 : t.val % 4 = 3 := (flush0_2 t).mp hf
  have hN : cfg0.N = 8 := N_0
  obtain ⟨-, -, -, -, e20, e21, e22, -, -, -⟩ := idx_facts t
  show (cfg0.win 2).cut (grid0.coords t) ((dats m 0 c).after 2 t) = _
  rw [after0_2]
  funext y
  show (outsAt0 m c t.val t.isLt).1 y = G2 m c (((cfg0.win 2).blk t).view.emb y)
  rw [out2_at m c t h3 y]
  unfold G2
  refine accL_congr m c _ _ _ _ ?_
  show t.val = 4 * (win0_2.index t (0 : Fin 3) * 1 + 1 * (y 0).val) + 3
  have hy : (y 0).val < 1 := (y 0).isLt
  have ht : t.val < 8 := lt_of_lt_of_eq t.isLt hN
  omega

/-- Likewise for the second result array. -/
theorem flushed3_eq (c : Dev nD) (t : Fin cfg0.N) (hf : (cfg0.win 3).flush t = true) :
    (dats m 0 c).flushed 3 t = ((cfg0.win 3).blk t).view.read (Elt Ideal) (G3 m c) := by
  have h3 : t.val % 4 = 3 := (flush0_3 t).mp hf
  have hN : cfg0.N = 8 := N_0
  obtain ⟨-, -, -, -, -, -, -, e30, e31, e32⟩ := idx_facts t
  show (cfg0.win 3).cut (grid0.coords t) ((dats m 0 c).after 3 t) = _
  rw [after0_3]
  funext y
  show (outsAt0 m c t.val t.isLt).2.1 y = G3 m c (((cfg0.win 3).blk t).view.emb y)
  rw [out3_at m c t h3 y]
  unfold G3
  have hy0 : (y 0).val < 1 := (y 0).isLt
  have hy2 : (y 2).val < 1000 := (y 2).isLt
  have ht : t.val < 8 := lt_of_lt_of_eq t.isLt hN
  have hj : y 2 = (((cfg0.win 3).blk t).view.emb y) 2 := by
    apply Fin.ext
    show (y 2).val = win0_3.index t (2 : Fin 3) * 1000 + 1 * (y 2).val
    omega
  rw [← hj]
  refine accC_congr m c _ _ _ _ ?_ (y 2)
  show t.val = 4 * (win0_3.index t (0 : Fin 3) * 1 + 1 * (y 0).val) + 3
  omega

/-- An index of the first result array is in point `t`'s block iff each coordinate is in the block's range. -/
theorem mem_blk2 (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v2_0).slice (win0_2.rect t)).set ↔ _
  rw [View.set_slice_whole, Rect.mem_set_unit]
  exact Iff.rfl
theorem mem_blk3 (t : Fin cfg0.N) (i : S2x1x1000.Idx) :
    i ∈ ((cfg0.win 3).blk t).view.set ↔ ∀ a : Fin 3, win0_3.index t a * S1x1x1000.size a ≤ (i a).val ∧ (i a).val < win0_3.index t a * S1x1x1000.size a + S1x1x1000.size a := by
  show i ∈ ((View.whole main_v2_1).slice (win0_3.rect t)).set ↔ _
  rw [View.set_slice_whole, Rect.mem_set_unit]
  exact Iff.rfl

/-- The last point of core `q`. -/
def lastPt (q : Fin 2) : Fin cfg0.N := ⟨4 * q.val + 3, by have hq := q.isLt; have hN : cfg0.N = 8 := N_0; omega⟩

/-- THE FIRST RESULT ARRAY after the region: core `c`'s scalar accumulator after its last point. -/
theorem final2 (c : Dev nD) : (dats m 0 c).arrAt 2 cfg0.N = G2 m c :=
  (dats m 0 c).arrAt_eq_of_cover 2 (G2 m c) (flushed2_eq m c) fun i => by
    have hi0 : (i 0).val < 2 := (i 0).isLt
    have hi1 : (i 1).val < 1 := (i 1).isLt
    have hi2 : (i 2).val < 1 := (i 2).isLt
    obtain ⟨-, -, -, -, e20, e21, e22, -, -, -⟩ := idx_facts (lastPt ⟨(i 0).val, hi0⟩)
    have hv : (lastPt ⟨(i 0).val, hi0⟩).val = 4 * (i 0).val + 3 := rfl
    refine ⟨lastPt ⟨(i 0).val, hi0⟩, (flush0_2 _).mpr (by rw [hv]; omega), ?_⟩
    rw [mem_blk2]
    intro a
    match a with
    | ⟨0, _⟩ => show win0_2.index _ (0 : Fin 3) * 1 ≤ (i 0).val ∧ (i 0).val < win0_2.index _ (0 : Fin 3) * 1 + 1; omega
    | ⟨1, _⟩ => show win0_2.index _ (1 : Fin 3) * 1 ≤ (i 1).val ∧ (i 1).val < win0_2.index _ (1 : Fin 3) * 1 + 1; omega
    | ⟨2, _⟩ => show win0_2.index _ (2 : Fin 3) * 1 ≤ (i 2).val ∧ (i 2).val < win0_2.index _ (2 : Fin 3) * 1 + 1; omega

/-- THE SECOND RESULT ARRAY after the region: core `c`'s row accumulator after its last point. -/
theorem final3 (c : Dev nD) : (dats m 0 c).arrAt 3 cfg0.N = G3 m c :=
  (dats m 0 c).arrAt_eq_of_cover 3 (G3 m c) (flushed3_eq m c) fun i => by
    have hi0 : (i 0).val < 2 := (i 0).isLt
    have hi1 : (i 1).val < 1 := (i 1).isLt
    have hi2 : (i 2).val < 1000 := (i 2).isLt
    obtain ⟨-, -, -, -, -, -, -, e30, e31, e32⟩ := idx_facts (lastPt ⟨(i 0).val, hi0⟩)
    have hv : (lastPt ⟨(i 0).val, hi0⟩).val = 4 * (i 0).val + 3 := rfl
    refine ⟨lastPt ⟨(i 0).val, hi0⟩, (flush0_3 _).mpr (by rw [hv]; omega), ?_⟩
    rw [mem_blk3]
    intro a
    match a with
    | ⟨0, _⟩ => show win0_3.index _ (0 : Fin 3) * 1 ≤ (i 0).val ∧ (i 0).val < win0_3.index _ (0 : Fin 3) * 1 + 1; omega
    | ⟨1, _⟩ => show win0_3.index _ (1 : Fin 3) * 1 ≤ (i 1).val ∧ (i 1).val < win0_3.index _ (1 : Fin 3) * 1 + 1; omega
    | ⟨2, _⟩ => show win0_3.index _ (2 : Fin 3) * 1000 ≤ (i 2).val ∧ (i 2).val < win0_3.index _ (2 : Fin 3) * 1000 + 1000; omega

/-! ## The accumulators after a core's last point, and the sums over the grid -/

theorem accL_restart (c : Dev nD) (n : ℕ) (h : n < cfg0.N) (h0 : n % 4 = 0) : accL m c n h = tileL m c ⟨n, h⟩ := by
  cases n with
  | zero => rfl
  | succ n =>
    show (if (n + 1) % 4 = 0 then tileL m c ⟨n + 1, h⟩ else accL m c n (Nat.lt_of_succ_lt h) + tileL m c ⟨n + 1, h⟩) = _
    rw [if_pos h0]
theorem accL_step (c : Dev nD) (n : ℕ) (h : n + 1 < cfg0.N) (h0 : ¬ (n + 1) % 4 = 0) :
    accL m c (n + 1) h = accL m c n (Nat.lt_of_succ_lt h) + tileL m c ⟨n + 1, h⟩ := by
  show (if (n + 1) % 4 = 0 then tileL m c ⟨n + 1, h⟩ else accL m c n (Nat.lt_of_succ_lt h) + tileL m c ⟨n + 1, h⟩) = _
  rw [if_neg h0]
theorem accC_restart (c : Dev nD) (n : ℕ) (h : n < cfg0.N) (h0 : n % 4 = 0) (j : Fin 1000) : accC m c n h j = tileC m c ⟨n, h⟩ j := by
  cases n with
  | zero => rfl
  | succ n =>
    show (if (n + 1) % 4 = 0 then tileC m c ⟨n + 1, h⟩ j else accC m c n (Nat.lt_of_succ_lt h) j + tileC m c ⟨n + 1, h⟩ j) = _
    rw [if_pos h0]
theorem accC_step (c : Dev nD) (n : ℕ) (h : n + 1 < cfg0.N) (h0 : ¬ (n + 1) % 4 = 0) (j : Fin 1000) :
    accC m c (n + 1) h j = accC m c n (Nat.lt_of_succ_lt h) j + tileC m c ⟨n + 1, h⟩ j := by
  show (if (n + 1) % 4 = 0 then tileC m c ⟨n + 1, h⟩ j else accC m c n (Nat.lt_of_succ_lt h) j + tileC m c ⟨n + 1, h⟩ j) = _
  rw [if_neg h0]

/-- Point `k` of core `q`. -/
def pt (q : Fin 2) (k : Fin 4) : Fin cfg0.N :=
  ⟨4 * q.val + k.val, by have hq := q.isLt; have hk := k.isLt; have hN : cfg0.N = 8 := N_0; omega⟩

/-- After a core's last point the scalar accumulator is the sum of the core's four tiles. -/
theorem accL_core (c : Dev nD) (q : Fin 2) (h : 4 * q.val + 3 < cfg0.N) :
    accL m c (4 * q.val + 3) h = tileL m c (pt q 0) + tileL m c (pt q 1) + tileL m c (pt q 2) + tileL m c (pt q 3) := by
  have hN : cfg0.N = 8 := N_0
  have hq := q.isLt
  have s3 := accL_step m c (4 * q.val + 2) h (by omega)
  have s2 := accL_step m c (4 * q.val + 1) (Nat.lt_of_succ_lt h) (by omega)
  have s1 := accL_step m c (4 * q.val + 0) (Nat.lt_of_succ_lt (Nat.lt_of_succ_lt h)) (by omega)
  have s0 := accL_restart m c (4 * q.val + 0) (Nat.lt_of_succ_lt (Nat.lt_of_succ_lt (Nat.lt_of_succ_lt h))) (by omega)
  exact s3.trans (by rw [s2, s1, s0]; rfl)

theorem accC_core (c : Dev nD) (q : Fin 2) (h : 4 * q.val + 3 < cfg0.N) (j : Fin 1000) :
    accC m c (4 * q.val + 3) h j = tileC m c (pt q 0) j + tileC m c (pt q 1) j + tileC m c (pt q 2) j + tileC m c (pt q 3) j := by
  have hN : cfg0.N = 8 := N_0
  have hq := q.isLt
  have s3 := accC_step m c (4 * q.val + 2) h (by omega) j
  have s2 := accC_step m c (4 * q.val + 1) (Nat.lt_of_succ_lt h) (by omega) j
  have s1 := accC_step m c (4 * q.val + 0) (Nat.lt_of_succ_lt (Nat.lt_of_succ_lt h)) (by omega) j
  have s0 := accC_restart m c (4 * q.val + 0) (Nat.lt_of_succ_lt (Nat.lt_of_succ_lt (Nat.lt_of_succ_lt h))) (by omega) j
  exact s3.trans (by rw [s2, s1, s0]; rfl)

/-- A sum over the 8 points is the sum over the 2 cores of their 4 points. -/
theorem sum_pts {M : Type} [AddCommMonoid M] (f : Fin cfg0.N → M) :
    ∑ t : Fin cfg0.N, f t = ∑ q : Fin 2, (f (pt q 0) + f (pt q 1) + f (pt q 2) + f (pt q 3)) := by
  have hN : 2 * 4 = cfg0.N := by rw [show cfg0.N = 8 from N_0]
  let e : Fin 2 × Fin 4 ≃ Fin cfg0.N := finProdFinEquiv.trans (finCongr hN)
  rw [← e.sum_comp f, Fintype.sum_prod_type]
  refine Finset.sum_congr rfl fun q _ => ?_
  rw [Fin.sum_univ_four]
  have hpt : ∀ k : Fin 4, e (q, k) = pt q k := fun k => Fin.ext (by
    show (finProdFinEquiv (q, k)).val = 4 * q.val + k.val
    rw [finProdFinEquiv_apply_val]
    show k.val + 4 * q.val = 4 * q.val + k.val
    omega)
  rw [hpt, hpt, hpt, hpt]

/-- A sum over the 16384 rows is the sum over the 8 tiles of their 2048 rows. -/
theorem sum_rows {M : Type} [AddCommMonoid M] (f : Fin 16384 → M) :
    ∑ R : Fin 16384, f R = ∑ t : Fin cfg0.N, ∑ r : Fin 2048, f ⟨t.val * 2048 + r.val, by
      have ht := t.isLt; have hr := r.isLt; have hN : cfg0.N = 8 := N_0; omega⟩ := by
  have hN : cfg0.N * 2048 = 16384 := by rw [show cfg0.N = 8 from N_0]
  let e : Fin cfg0.N × Fin 2048 ≃ Fin 16384 := finProdFinEquiv.trans (finCongr hN)
  rw [← e.sum_comp f, Fintype.sum_prod_type]
  refine Finset.sum_congr rfl fun t _ => Finset.sum_congr rfl fun r _ => congrArg f (Fin.ext ?_)
  show (finProdFinEquiv (t, r)).val = t.val * 2048 + r.val
  rw [finProdFinEquiv_apply_val]
  show r.val + 2048 * t.val = t.val * 2048 + r.val
  omega

/-! ## The tiles are consecutive row ranges of the arrays the region finds -/

/-- Row `r`, column `j` of tile `t` of the probability table is row `2048·t + r` of the table. -/
theorem pblk_apply (c : Dev nD) (t : Fin cfg0.N) (r : Fin 2048) (j : Fin 1000) (hR : t.val * 2048 + r.val < 16384) :
    pblk m c t (ix2 r j) = (V m c main_arg0 : FVec Ideal S16384x1000 .f32) (ix2 ⟨t.val * 2048 + r.val, hR⟩ j) := by
  obtain ⟨e00, e01, -, -, -, -, -, -, -, -⟩ := idx_facts t
  show V m c main_arg0 (((cfg0.win 0).blk t).view.emb (ix2 r j)) = _
  refine congrArg (V m c main_arg0) (funext fun a => Fin.ext ?_)
  match a with
  | ⟨0, _⟩ => show win0_0.index t (0 : Fin 2) * 2048 + 1 * r.val = t.val * 2048 + r.val; omega
  | ⟨1, _⟩ => show win0_0.index t (1 : Fin 2) * 1000 + 1 * j.val = j.val; omega

/-- Row `r` of tile `t` of the target column is row `2048·t + r` of the column. -/
theorem tblk_apply (c : Dev nD) (t : Fin cfg0.N) (r : Fin 2048) (hR : t.val * 2048 + r.val < 16384) :
    tblk m c t (ix2 r 0) = (V m c main_v1 : IVec S16384x1 32) (ix2 ⟨t.val * 2048 + r.val, hR⟩ 0) := by
  obtain ⟨-, -, e10, e11, -, -, -, -, -, -⟩ := idx_facts t
  show V m c main_v1 (((cfg0.win 1).blk t).view.emb (ix2 r 0)) = _
  refine congrArg (V m c main_v1) (funext fun a => Fin.ext ?_)
  match a with
  | ⟨0, _⟩ => show win0_1.index t (0 : Fin 2) * 2048 + 1 * r.val = t.val * 2048 + r.val; omega
  | ⟨1, _⟩ => show win0_1.index t (1 : Fin 2) * 1 + 1 * 0 = 0; omega

/-- THE FOCAL TOTAL: the first result array's two entries add up to the focal total of the table `P` and the
    targets `T`, when the region finds `P` as its table and `T` as its target column. -/
theorem sum_G2 (c : Dev nD) (P : SP.Idx → EReal) (T : ST.Idx → BitVec 32)
    (hP : (V m c main_arg0 : FVec Ideal S16384x1000 .f32) = P)
    (hT : ∀ R : Fin 16384, (V m c main_v1 : IVec S16384x1 32) (ix2 R 0) = T (ix1 R)) :
    G2 m c (ix3 0 0 0) + G2 m c (ix3 1 0 0) = lossTotal P T := by
  have hN : cfg0.N = 8 := N_0
  unfold lossTotal
  rw [sum_rows (fun R => rowK (pSel P T R)), sum_pts, Fin.sum_univ_two]
  have hcore : ∀ q : Fin 2, G2 m c (ix3 q 0 0) = tileL m c (pt q 0) + tileL m c (pt q 1) + tileL m c (pt q 2) + tileL m c (pt q 3) :=
    fun q => accL_core m c q _
  have htile : ∀ t : Fin cfg0.N, tileL m c t = ∑ r : Fin 2048, rowK (pSel P T ⟨t.val * 2048 + r.val, by
      have ht := t.isLt; have hr := r.isLt; omega⟩) := by
    intro t
    unfold tileL
    refine Finset.sum_congr rfl fun r _ => congrArg rowK ?_
    unfold tileSel pSel
    have hR : t.val * 2048 + r.val < 16384 := by have ht := t.isLt; have hr := r.isLt; omega
    refine Finset.sum_congr rfl fun cls _ => ?_
    rw [pblk_apply m c t r cls hR, tblk_apply m c t r hR, hT ⟨t.val * 2048 + r.val, hR⟩, hP]
  rw [hcore 0, hcore 1]
  simp only [htile]

/-- THE CONFIDENCE TOTALS: column `j` of the second result array's two rows adds up to the table's column sum. -/
theorem sum_G3 (c : Dev nD) (P : SP.Idx → EReal)
    (hP : (V m c main_arg0 : FVec Ideal S16384x1000 .f32) = P) (j : Fin 1000) :
    G3 m c (ix3 0 0 j) + G3 m c (ix3 1 0 j) = colTotal P j := by
  have hN : cfg0.N = 8 := N_0
  unfold colTotal
  rw [sum_rows (fun R => P (ix2 R j)), sum_pts, Fin.sum_univ_two]
  have hcore : ∀ q : Fin 2, G3 m c (ix3 q 0 j) = tileC m c (pt q 0) j + tileC m c (pt q 1) j + tileC m c (pt q 2) j + tileC m c (pt q 3) j :=
    fun q => accC_core m c q _ j
  have htile : ∀ t : Fin cfg0.N, tileC m c t j = ∑ r : Fin 2048, P (ix2 ⟨t.val * 2048 + r.val, by
      have ht := t.isLt; have hr := r.isLt; omega⟩ j) := by
    intro t
    unfold tileC
    refine Finset.sum_congr rfl fun r _ => ?_
    have hR : t.val * 2048 + r.val < 16384 := by have ht := t.isLt; have hr := r.isLt; omega
    rw [pblk_apply m c t r j hR, hP]
  rw [hcore 0, hcore 1]
  simp only [htile]

end Cert.KernelIdeal.KValue

end
-- ==== Proof.Closing.lean ====
/-
  The closing arithmetic, which the two programs spell identically: from the focal total S, the confidence totals Cs
  and the class histogram cnt,

      S / 16384  +  1 · ( (0 + Σ_j | Cs_j / 16384 − cnt_j / 16384 |) / 1000 ).

  It is kept as one opaque function of (S, Cs, cnt): the comparison of the two programs never opens it.
-/
import Idealize.ShloMosaic.PureOps
import Idealize.ShloMosaic.PureOps.Ideal

noncomputable section

namespace Cert.Focal

open Idealize.ShloMosaic

/-- The scalar shape and the per-class vector's shape. -/
abbrev S0 : Shape := ⟨0, ![]⟩
abbrev SC : Shape := ⟨1, ![1000]⟩

/-- The closing arithmetic of both programs. -/
def closing (hb : S0.BroadcastsInDim SC (![] : Fin 0 → Fin SC.rank)) (hr : SC.ReducesTo [0] S0) (hn : 0 < S0.numel)
    (S : FVec Ideal S0 .f32) (Cs cnt : FVec Ideal SC .f32) : FVec Ideal S0 .f32 :=
  addf (Host.divf S (constant (F := Ideal) S0 .f32 0x46800000#32))
    (mulf (constant (F := Ideal) S0 .f32 0x3F800000#32)
      (Host.divf
        (Host.reduceAdd
          (Host.absf (subf
            (Host.divf Cs (broadcastInDim SC ![] hb (constant (F := Ideal) S0 .f32 0x46800000#32)))
            (Host.divf cnt (broadcastInDim SC ![] hb (constant (F := Ideal) S0 .f32 0x46800000#32)))))
          (constant (F := Ideal) S0 .f32 0x00000000#32) hr hn)
        (constant (F := Ideal) S0 .f32 0x447A0000#32)))

end Cert.Focal

end
-- ==== Proof.KernelTail.lean ====
/-
  The kernel program's result: the host operations after the region, applied to the two result arrays the region
  leaves and to the clipped target vector, are the closing arithmetic of Closing.lean at the sum of the first result
  array's entries, the column-wise sum of the second one's two rows, and the histogram of the clipped targets.
-/
import proofs.«427627_j19370302505551_3_alg».proof.Proof.Gen.KernelIdeal.Frame
import proofs.«427627_j19370302505551_3_alg».proof.Proof.Closing
import Idealize.ShloMosaic.Lib.StableHlo.Run
import Idealize.ShloMosaic.PureOps.Ideal

noncomputable section

namespace Cert.KernelIdeal.KTail

open Cert.KernelIdeal Cert.KernelIdeal.Gen Cert.Focal
open Idealize.ShloMosaic Idealize.ShloMosaic.TcCoe Idealize.SL.Sem Idealize.ShloMosaic.StableHlo

variable (m : (ℓ : Loc nD τ sig) → Buf (Elt Ideal) ℓ)

/-- What the host operations after the region read at buffer `b`: the region's result arrays at what the region
    left, every other buffer as the region found it. -/
abbrev atEnd (c : Dev nD) (b : Ref sig .tc) :=
  Pipeline.withArrays (cfgs 0).spec c (V0 m c) (fun w => (dats m 0 c).arrAt w (cfgs 0).N) (Proc.devRef .tc b)

/-- The histogram's index array as the kernel program computes it from the clipped targets `v`. -/
def histIdx (v : IVec S16384 32) : IVec S16384x1 32 :=
  broadcastInDim S16384x1 ![0] bcast_S16384_S16384x1_0
    (select (cmpi .slt v (broadcastInDim S16384 ![] bcast_S_S16384 (constantI S_ 32 0#32)))
      (addi v (broadcastInDim S16384 ![] bcast_S_S16384 (constantI S_ 32 1000#32))) v)

/-- The class histogram of an index array: ones scattered onto zeros. -/
def hist (idx : IVec S16384x1 32) : FVec Ideal S1000 .f32 :=
  Host.scatterAdd scatter_S1000_S16384x1_S16384_n_0_0_1
    (broadcastInDim S1000 ![] bcast_S_S1000 (constant (F := Ideal) S_ .f32 0x00000000#32)) idx
    (broadcastInDim S16384 ![] bcast_S_S16384 (constant (F := Ideal) S_ .f32 0x3F800000#32))

set_option maxHeartbeats 4000000 in
/-- The program's result is the closing arithmetic of the three quantities read off the end of the region. -/
theorem tail_read (c : Dev nD) :
    Pipeline.afterTail₀ cfgs (dats m) 0 (V0 m) [hostOps1] c main_v25
      = closing bcast_S_S1000 reducesTo_S1000_S_d0 h_S_
          (Host.reduceAdd (atEnd m c main_v2_0) (constant (F := Ideal) S_ .f32 0x00000000#32) reducesTo_S2x1x1_S_d0_1_2 h_S_)
          (shapeCast S1000 (Host.reduceAdd (atEnd m c main_v2_1) (constant (F := Ideal) S_ .f32 0x00000000#32) reducesTo_S2x1x1000_S1x1000_d0 h_S_) shapeCasts_S1x1000_S1000)
          (hist (histIdx (atEnd m c main_v0))) := by
  unfold Pipeline.afterTail₀
  simp only [List.flatten_cons, List.flatten_nil, List.append_nil]
  after_results
  rfl

end Cert.KernelIdeal.KTail

end
-- ==== Proof.PreDecode.lean ====
/-
  What the precondition says, element by element: every entry of the probability table is a real number, and every
  target word is a class index, 0 ≤ t < 1000 as a signed 32-bit integer. Then the word-level consequences the two
  programs rely on: clipping such a word to [0, 999] and wrapping a negative word by +1000 both leave it unchanged,
  the reference's in-range test passes, and the word is the 32-bit numeral of a natural number below 1000.
-/
import proofs.«427627_j19370302505551_3_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal

noncomputable section

namespace Cert.Focal.PreDecode

open Idealize.ShloMosaic Idealize.ShloMosaic.ValueIdx

/-- A target word in the label range. -/
def InRange (w : BitVec 32) : Prop := 0 ≤ w.toInt ∧ w.toInt < 1000

/-! The signed values of the three literal words the comparisons meet. -/
private theorem toInt_zero32 : (0#32 : BitVec 32).toInt = 0 := by decide
private theorem toInt_999 : (999#32 : BitVec 32).toInt = 999 := by decide
private theorem toInt_1000 : (1000#32 : BitVec 32).toInt = 1000 := by decide

/-- The word 0x7F800000 denotes +∞. -/
private theorem ofBits_inf : Ideal.ofBits .f32 0x7F800000#32 = ⊤ := by simp [Ideal.ofBits, Ideal.ieee]

/-- An extended real whose absolute value max(x, −x) is below +∞ is a real number: at −∞ and at +∞ the maximum is +∞. -/
private theorem real_of_abs_lt_top (x : EReal) (hx : max x (-x) < ⊤) : ∃ r : ℝ, x = (r : EReal) := by
  induction x using EReal.rec with
  | bot => simp at hx
  | top => simp at hx
  | coe r => exact ⟨r, rfl⟩

/-- A rank-0 array has one index. -/
private instance : Subsingleton Cert.Pre_finite_inputs.S_.Idx := ⟨fun a b => funext fun d => d.elim0⟩

/-- A signed value in [0, 1000) is the unsigned value: a word with the top bit set would read negative. -/
private theorem toNat_facts (w : BitVec 32) (h : InRange w) : w.toNat < 1000 ∧ w.toInt = (w.toNat : Int) := by
  have hlt := w.isLt
  obtain ⟨h0, h1⟩ := h
  rw [BitVec.toInt_eq_toNat_cond] at h0 h1 ⊢
  split at h0 <;> omega

/-- The precondition, decoded: finite entries and in-range targets. -/
theorem of_pre (P : FVec Ideal Cert.Pre_finite_inputs.S16384x1000 .f32) (T : IVec Cert.Pre_finite_inputs.S16384 32)
    (h : Cert.Pre_finite_inputs.fn (F := Ideal) P T = fun _ => 1#1) :
    (∀ i, ∃ x : ℝ, P i = (x : EReal)) ∧ (∀ r : Fin 16384, InRange (T (ix1 r))) := by
  -- the predicate's one element is the conjunction of two reductions by "and"; each is 1
  have h0 := congrFun h ix0
  dsimp only [Cert.Pre_finite_inputs.fn] at h0
  obtain ⟨hA, hB⟩ := IntOp.andi_eq_one.1 h0
  constructor
  · -- every element of the first mask is 1: |P i| < +∞, so P i is neither infinity
    intro i
    have hi := Host.reduce_andi_all _ _ _ _ _ hA i
    have hi' : Ideal.cmp .olt (max (P i) (-(P i))) (Ideal.ofBits .f32 0x7F800000#32) = 1#1 := hi
    rw [ofBits_inf] at hi'
    simp only [Ideal.cmp, StableHlo.Predicate.ofBool_eq_one_iff, decide_eq_true_eq] at hi'
    exact real_of_abs_lt_top (P i) hi'
  · -- every element of the second mask is 1: 0 ≤ T r and T r < 1000 as signed words
    intro r
    have hr := Host.reduce_andi_all _ _ _ _ _ hB (ix1 r)
    have hr' : IntOp.andi (IntOp.cmpi .sge (T (ix1 r)) 0#32) (IntOp.cmpi .slt (T (ix1 r)) 1000#32) = 1#1 := hr
    obtain ⟨h1, h2⟩ := IntOp.andi_eq_one.1 hr'
    simp only [IntOp.cmpi, StableHlo.Predicate.ofBool_eq_one_iff, BitVec.sle, BitVec.slt, toInt_zero32, toInt_1000,
      decide_eq_true_eq] at h1 h2
    exact ⟨h1, h2⟩

/-- Clipping an in-range word to [0, 999] leaves it unchanged. -/
theorem clip_id (w : BitVec 32) (h : InRange w) : IntOp.minsi 999#32 (IntOp.maxsi 0#32 w) = w := by
  obtain ⟨h0, h1⟩ := h
  -- max(0, w) = w since w is not below 0
  have hmax : IntOp.maxsi 0#32 w = w := by
    unfold IntOp.maxsi
    rw [if_neg]
    simp only [BitVec.slt, toInt_zero32, decide_eq_true_eq]; omega
  rw [hmax]
  -- min(999, w) = w since 999 is not below w
  unfold IntOp.minsi
  rw [if_neg]
  simp only [BitVec.slt, toInt_999, decide_eq_true_eq]; omega

/-- An in-range word is not negative, so the wrap of negative indices leaves it unchanged. -/
theorem wrap_id (w : BitVec 32) (h : InRange w) :
    Scalar.select (IntOp.cmpi .slt w 0#32) (IntOp.addi w 1000#32) w = w := by
  obtain ⟨h0, h1⟩ := h
  have hc : IntOp.cmpi .slt w 0#32 = 0#1 := by
    have : w.slt 0#32 = false := by
      simp only [BitVec.slt, toInt_zero32, decide_eq_false_iff_not]; omega
    simp only [IntOp.cmpi, this]; rfl
  rw [hc, select_zero]

/-- The reference's in-range test `0 ≤ w ∧ w ≤ 999` passes. -/
theorem valid (w : BitVec 32) (h : InRange w) :
    IntOp.andi (IntOp.cmpi .sge w 0#32) (IntOp.cmpi .sle w 999#32) = 1#1 := by
  obtain ⟨h0, h1⟩ := h
  refine IntOp.andi_eq_one.2 ⟨?_, ?_⟩
  · have : (0#32 : BitVec 32).sle w = true := by
      simp only [BitVec.sle, toInt_zero32, decide_eq_true_eq]; exact h0
    simp only [IntOp.cmpi, this]; rfl
  · have : w.sle 999#32 = true := by
      simp only [BitVec.sle, toInt_999, decide_eq_true_eq]; omega
    simp only [IntOp.cmpi, this]; rfl

/-- An in-range word is the numeral of its natural value, which is below 1000 and is also its signed value. -/
theorem toNat_lt (w : BitVec 32) (h : InRange w) : w.toNat < 1000 := (toNat_facts w h).1
theorem eq_ofNat (w : BitVec 32) (h : InRange w) : w = BitVec.ofNat 32 w.toNat := by
  apply BitVec.eq_of_toNat_eq
  rw [BitVec.toNat_ofNat, Nat.mod_eq_of_lt w.isLt]
theorem toInt_toNat (w : BitVec 32) (h : InRange w) : w.toInt.toNat = w.toNat := by
  rw [(toNat_facts w h).2]; exact Int.toNat_natCast _

end Cert.Focal.PreDecode

end
-- ==== Proof.KernelResult.lean ====
/-
  The kernel program's result in terms of the probability table P and the targets T, under the precondition's
  consequence that every target is a class index.

  With in-range targets the clip to [0, 999] does nothing, so the region's target column is T itself, and so is the
  histogram's index array. The first result array's two entries add up to the focal total of (P, T) and the second
  one's two rows add up, column by column, to the confidence totals of P (KernelValue.lean); the host sums after the
  region form exactly these sums. So the result is the closing arithmetic at (focal total, confidence totals,
  histogram of T).
-/
import proofs.«427627_j19370302505551_3_alg».proof.Proof.KernelValue
import proofs.«427627_j19370302505551_3_alg».proof.Proof.KernelTail
import proofs.«427627_j19370302505551_3_alg».proof.Proof.PreDecode

noncomputable section

namespace Cert.KernelIdeal.KResult

open Cert.KernelIdeal Cert.KernelIdeal.Gen Cert.KernelIdeal.KValue Cert.KernelIdeal.KTail Cert.Focal Cert.Focal.PreDecode
open Idealize.ShloMosaic Idealize.ShloMosaic.ValueIdx Idealize.ShloMosaic.TcCoe Idealize.SL.Sem Idealize.ShloMosaic.StableHlo

variable (m : (ℓ : Loc nD τ sig) → Buf (Elt Ideal) ℓ)

/-- The targets as launched. -/
abbrev tgt (c : Dev nD) : IVec S16384 32 := m ((c : Thread nD τ).loc main_arg1)
/-- The probability table as launched. -/
abbrev tab (c : Dev nD) : FVec Ideal S16384x1000 .f32 := m ((c : Thread nD τ).loc main_arg0)

/-- The clipped target vector the host computes before the region. -/
theorem clipped_eq (c : Dev nD) :
    (V0 m c (Proc.devRef .tc main_v0) : IVec S16384 32)
      = minsi (broadcastInDim S16384 ![] bcast_S_S16384 (constantI S_ 32 999#32))
          (maxsi (broadcastInDim S16384 ![] bcast_S_S16384 (constantI S_ 32 0#32)) (tgt m c)) := by
  dsimp only [Gen.V0]
  simp only [Gen.hostOps0, Gen.hostOps0_1, Gen.hostOps0_2, List.flatten_cons, List.flatten_nil, List.append_nil, List.cons_append, List.nil_append]
  after_results
  simp only [TRef.ofBuf, TRef.toBuf, cast_eq]
  rfl

/-- With in-range targets the clipped vector is the target vector. -/
theorem clipped_id (c : Dev nD) (hT : ∀ r : Fin 16384, InRange (tgt m c (ix1 r))) :
    (V0 m c (Proc.devRef .tc main_v0) : IVec S16384 32) = tgt m c := by
  rw [clipped_eq]
  funext i
  obtain ⟨r, rfl⟩ : ∃ r : Fin 16384, i = ix1 r := ⟨i 0, eq_ix1 i⟩
  exact clip_id _ (hT r)

/-- The region's target column is the clipped vector, one row per entry. -/
theorem column_eq (c : Dev nD) :
    (V m c main_v1 : IVec S16384x1 32)
      = shapeCast S16384x1 (V0 m c (Proc.devRef .tc main_v0) : IVec S16384 32) shapeCasts_S16384_S16384x1 := by
  rw [clipped_eq]
  dsimp only [Gen.V, Gen.V0]
  simp only [Gen.hostOps0, Gen.hostOps0_1, Gen.hostOps0_2, List.flatten_cons, List.flatten_nil, List.append_nil, List.cons_append, List.nil_append]
  after_results
  simp only [TRef.ofBuf, TRef.toBuf, cast_eq]
  rfl

/-- With in-range targets, row R of the region's target column is target R. -/
theorem column_at (c : Dev nD) (hT : ∀ r : Fin 16384, InRange (tgt m c (ix1 r))) (R : Fin 16384) :
    (V m c main_v1 : IVec S16384x1 32) (ix2 R 0) = tgt m c (ix1 R) := by
  rw [column_eq, clipped_id m c hT]
  exact shapeCast_apply _ shapeCasts_S16384_S16384x1 (ix2 R 0) (ix1 R) (by
    rewrite [Shape.rowMajor_val_one, Shape.rowMajor_val_two]; show R.val = R.val * 1 + 0; omega)

/-- With in-range targets, the histogram's index array sends row r to target r. -/
theorem histIdx_id (v : IVec S16384 32) (hv : ∀ r : Fin 16384, InRange (v (ix1 r))) :
    histIdx v = fun i => v (ix1 (i 0)) := by
  funext i
  unfold histIdx
  rw [broadcastInDim_apply _ bcast_S16384_S16384x1_0 _ i (ix1 (i 0)) (fun a => by
    match a with
    | ⟨0, _⟩ => rfl)]
  exact wrap_id _ (hv (i 0))

/-- The sum of the first result array's entries, as the host forms it. -/
theorem hostSum2 (c : Dev nD) (i : S_.Idx) :
    Host.reduceAdd (G2 m c) (constant (F := Ideal) S_ .f32 0x00000000#32) reducesTo_S2x1x1_S_d0_1_2 h_S_ i
      = G2 m c (ix3 0 0 0) + G2 m c (ix3 1 0 0) := by
  simp only [Host.reduceAdd, Ideal.hostReduceAdd_def]
  rw [Ideal.hostReduceAdd_total reducesTo_S2x1x1_S_d0_1_2 (fun b => b.elim0)]
  have hz : constant (F := Ideal) S_ .f32 0x00000000#32 (Shape.Idx.first h_S_) = 0 := ofBits_zero
  rw [hz, zero_add]
  let e : Fin 2 ≃ S2x1x1.Idx :=
    { toFun := fun q => ix3 q 0 0
      invFun := fun i => i 0
      left_inv := fun q => rfl
      right_inv := fun i => funext fun a => Fin.ext (by
        have h1 : (i 1).val < 1 := (i 1).isLt
        have h2 : (i 2).val < 1 := (i 2).isLt
        match a with
        | ⟨0, _⟩ => rfl
        | ⟨1, _⟩ => show 0 = (i 1).val; omega
        | ⟨2, _⟩ => show 0 = (i 2).val; omega) }
  rw [← e.sum_comp (G2 m c), Fin.sum_univ_two]
  rfl

/-- The column-wise sum of the second result array's two rows, as the host forms it. -/
theorem hostSum3 (c : Dev nD) (j : S1000.Idx) :
    shapeCast S1000 (Host.reduceAdd (G3 m c) (constant (F := Ideal) S_ .f32 0x00000000#32) reducesTo_S2x1x1000_S1x1000_d0 h_S_) shapeCasts_S1x1000_S1000 j
      = G3 m c (ix3 0 0 (j 0)) + G3 m c (ix3 1 0 (j 0)) := by
  rw [shapeCast_apply _ shapeCasts_S1x1000_S1000 j (ix2 0 (j 0)) (by
    rewrite [Shape.rowMajor_val_one, Shape.rowMajor_val_two]; show 0 * 1000 + (j 0).val = (j 0).val; omega)]
  simp only [Host.reduceAdd, Ideal.hostReduceAdd_def]
  rw [Ideal.hostReduceAdd_single reducesTo_S2x1x1000_S1x1000_d0 (by decide)]
  have hz : constant (F := Ideal) S_ .f32 0x00000000#32 (Shape.Idx.first h_S_) = 0 := ofBits_zero
  rw [hz, zero_add]
  have hl : ∀ (h : S2x1x1000.Reduces [0] S1x1000) (k : Fin 2), h.lift (ix2 0 (j 0)) k = ix3 k 0 (j 0) := fun h k =>
    funext fun a => Fin.ext (by match a with | ⟨0, _⟩ => rfl | ⟨1, _⟩ => rfl | ⟨2, _⟩ => rfl)
  exact (Fin.sum_univ_two _).trans
    (congrArg₂ (· + ·) (congrArg (G3 m c) (hl _ 0)) (congrArg (G3 m c) (hl _ 1)))

/-- THE KERNEL PROGRAM'S RESULT under in-range targets. -/
theorem kernel_result (c : Dev nD) (hT : ∀ r : Fin 16384, InRange (tgt m c (ix1 r))) :
    Pipeline.afterTail₀ cfgs (dats m) 0 (V0 m) [hostOps1] c main_v25
      = closing bcast_S_S1000 reducesTo_S1000_S_d0 h_S_ (fun _ => lossTotal (tab m c) (tgt m c))
          (fun j => colTotal (tab m c) (j 0)) (hist (fun i => tgt m c (ix1 (i 0)))) := by
  rw [tail_read]
  have hA2 : atEnd m c main_v2_0 = G2 m c :=
    (Pipeline.withArrays_arr spec0 launch0.win.arr_inj c _ _ 2).trans (final2 m c)
  have hA3 : atEnd m c main_v2_1 = G3 m c :=
    (Pipeline.withArrays_arr spec0 launch0.win.arr_inj c _ _ 3).trans (final3 m c)
  have hA0 : atEnd m c main_v0 = (V0 m c (Proc.devRef .tc main_v0) : IVec S16384 32) :=
    Pipeline.withArrays_of_ne _ c (V0 m c) _ main_v0 (by exact (by decide : ∀ w, Pipeline.arrRef spec0 w ≠ main_v0))
  have hP : (V m c main_arg0 : FVec Ideal S16384x1000 .f32) = tab m c := V_main_arg0 m c
  have hS : Host.reduceAdd (G2 m c) (constant (F := Ideal) S_ .f32 0x00000000#32) reducesTo_S2x1x1_S_d0_1_2 h_S_
      = fun _ => lossTotal (tab m c) (tgt m c) :=
    funext fun i => (hostSum2 m c i).trans (sum_G2 m c (tab m c) (tgt m c) hP (column_at m c hT))
  have hC : shapeCast S1000 (Host.reduceAdd (G3 m c) (constant (F := Ideal) S_ .f32 0x00000000#32) reducesTo_S2x1x1000_S1x1000_d0 h_S_) shapeCasts_S1x1000_S1000
      = fun j => colTotal (tab m c) (j 0) :=
    funext fun j => (hostSum3 m c j).trans (sum_G3 m c (tab m c) hP (j 0))
  rw [hA2, hA3, hA0, hS, hC, clipped_id m c hT, histIdx_id _ hT]

end Cert.KernelIdeal.KResult

end
-- ==== Proof.RefValue.lean ====
/-
  The reference program's three intermediate values that the comparison needs, as the plain sums of Spec.lean:
  the summed focal terms (its `%11`), the column sums of the probability table (its `%13`), and the index array
  its class histogram scatters by (its `%22`).
-/
import proofs.«427627_j19370302505551_3_alg».proof.Proof.RefRead
import proofs.«427627_j19370302505551_3_alg».proof.Proof.Spec
import proofs.«427627_j19370302505551_3_alg».proof.Proof.PreDecode
import Idealize.ShloMosaic.Lib.ValueIdx
import Idealize.ShloMosaic.Lib.ValueIdxRank1
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.Focal Cert.Focal.PreDecode
open Idealize.ShloMosaic Idealize.ShloMosaic.ValueIdx

/-- The wrapped and reshaped target, read at any position of the start-index array, is the row's own target word:
    an in-range word is not negative, so the wrap by +1000 leaves it alone, and position `[r, ·, ·]` reads row `r`. -/
private theorem tgt_at (T : IVec S16384 32) (hT : ∀ r : Fin 16384, InRange (T (ix1 r))) (i : S16384x1x1.Idx) :
    val_main_call0_v5 (F := Ideal) T i = T (ix1 (i 0)) := by
  have h1 : (i 1).val < 1 := (i 1).isLt
  have h2 : (i 2).val < 1 := (i 2).isLt
  have hi : idx_main_v1 (idx_main_call0_v5 i) = ix1 (i 0) :=
    funext fun a => Fin.ext (by
      match a with
      | ⟨0, _⟩ =>
        show (((i 0).val * 1 + (i 1).val) * 1 + (i 2).val) / 1 = (i 0).val
        omega)
  rw [val_main_call0_v5_apply, val_main_call0_v4_apply, val_main_call0_v1_apply, val_main_call0_v3_apply,
    val_main_v1_apply, val_main_call0_v0_apply, val_main_call0_v2_apply, val_main_call0_c_apply,
    val_main_call0_c_0_apply, hi]
  exact wrap_id _ (hT (i 0))

/-- A left fold of the bitwise "and", started at the set bit, over set bits is the set bit. -/
private theorem foldl_andi_one {β : Type} (l : List β) (g : β → BitVec 1) (hg : ∀ n, g n = 1#1) :
    l.foldl (fun r n => IntOp.andi r (g n)) 1#1 = 1#1 := by
  induction l with
  | nil => rfl
  | cons b l ih =>
    rw [List.foldl_cons, hg b, show IntOp.andi 1#1 1#1 = (1#1 : BitVec 1) from by decide]
    exact ih

/-- The in-range mask of the gather is set in every row: each target passes `0 ≤ t ∧ t ≤ 999`, and the "and" over the
    unit axis of set bits is set. -/
private theorem mask_at (T : IVec S16384 32) (hT : ∀ r : Fin 16384, InRange (T (ix1 r))) (j : S16384x1.Idx) :
    val_main_call0_v12 (F := Ideal) T j = 1#1 := by
  have hel : ∀ i : S16384x1x1.Idx, val_main_call0_v11 (F := Ideal) T i = 1#1 := by
    intro i
    rw [val_main_call0_v11_apply, val_main_call0_v7_apply, val_main_call0_v10_apply, val_main_call0_v6_apply,
      val_main_call0_v9_apply, val_main_call0_v8_apply, val_main_call0_c_2_apply, val_main_call0_c_1_apply,
      tgt_at T hT i]
    exact valid _ (hT (i 0))
  unfold val_main_call0_v12 Host.reduce
  rw [val_main_call0_c_3_apply]
  exact foldl_andi_one _ _ fun n => hel _

/-- The position of the start-index array that result position `j` reads: `[j₀, j₁, 0]`. -/
private abbrev startPos (j : S16384x1.Idx) : S16384x1x1.Idx :=
  fun a => match a with
    | ⟨0, _⟩ => ⟨(j 0).val, (j 0).isLt⟩
    | ⟨1, _⟩ => ⟨(j 1).val, (j 1).isLt⟩
    | ⟨2, _⟩ => ⟨0, Nat.one_pos⟩

/-- The gather read at `j`. Axis 0 of the operand is a batching axis: its coordinate is `j₀` (start and offset are 0
    there). Axis 1 is collapsed and is the one the start index names: its coordinate is the start index at
    `[j₀, j₁, 0]`, read signed and clamped into `[0, 1000 - 1]` (batch and offset coordinates are 0 there). -/
private theorem gather_at {α : Type} (x : S16384x1000.Idx → α) (idx : IVec S16384x1x1 32) (j : S16384x1.Idx) :
    Host.gather gather_S16384x1000_S16384x1x1_S16384x1_n_1_0_0_1_2_11 x idx j
      = x (ix2 (j 0) ⟨min (idx (startPos j)).toInt.toNat 999, by omega⟩) := by
  unfold Host.gather
  congr 1
  funext a
  refine Fin.ext ?_
  match a with
  | ⟨0, _⟩ =>
    show gather_S16384x1000_S16384x1x1_S16384x1_n_1_0_0_1_2_11.start j idx 0
        + gather_S16384x1000_S16384x1x1_S16384x1_n_1_0_0_1_2_11.batchCoord j 0
        + gather_S16384x1000_S16384x1x1_S16384x1_n_1_0_0_1_2_11.offCoord j 0 = (j 0).val
    rw [GatherDims.start_batching _ _ _ _ (by decide), GatherDims.offCoord_eq_zero _ _ _ (by decide)]
    unfold GatherDims.batchCoord
    rw [dif_pos (by decide)]
    simp only [Nat.zero_add, Nat.add_zero]
    rfl
  | ⟨1, _⟩ =>
    show gather_S16384x1000_S16384x1x1_S16384x1_n_1_0_0_1_2_11.start j idx 1
        + gather_S16384x1000_S16384x1x1_S16384x1_n_1_0_0_1_2_11.batchCoord j 1
        + gather_S16384x1000_S16384x1x1_S16384x1_n_1_0_0_1_2_11.offCoord j 1 = min (idx (startPos j)).toInt.toNat 999
    rw [GatherDims.batchCoord_eq_zero _ _ _ (by decide), GatherDims.offCoord_eq_zero _ _ _ (by decide)]
    simp only [Nat.add_zero]
    unfold GatherDims.start
    rw [dif_pos (by decide)]
    have hsi : gather_S16384x1000_S16384x1x1_S16384x1_n_1_0_0_1_2_11.siIdx j
        ⟨List.idxOf (1 : Fin 2) gather_S16384x1000_S16384x1x1_S16384x1_n_1_0_0_1_2_11.startIndexMap,
          List.idxOf_lt_length_iff.2 (by decide)⟩ = startPos j := by
      funext b; refine Fin.ext ?_
      match b with
      | ⟨0, _⟩ => rfl
      | ⟨1, _⟩ => rfl
      | ⟨2, _⟩ => rfl
    rw [hsi]
    rfl

/-- Row `r` of the reference: the mask is set, so the select keeps the gathered entry, which is the logarithm of the
    row's entry at the class `k` its target names (the clamp is the identity below 1000). The five operations after it
    form `-((1 - exp l) ^ 1) · l` at that logarithm `l`, which at a finite entry is the focal term of the entry; and the
    masked row sum picks the same entry. -/
private theorem row_eq (P : FVec Ideal S16384x1000 .f32) (T : IVec S16384 32)
    (hfin : ∀ i, ∃ x : ℝ, P i = (x : EReal)) (hT : ∀ r : Fin 16384, InRange (T (ix1 r))) (r : Fin 16384) :
    val_main_v10 (F := Ideal) P T (ix1 r) = rowK (pSel P T r) := by
  have hw : InRange (T (ix1 r)) := hT r
  have hlt : (T (ix1 r)).toNat < 1000 := toNat_lt _ hw
  have hj : idx_main_v3 (ix1 r) = ix2 r (0 : Fin 1) :=
    funext fun a => Fin.ext (by
      match a with
      | ⟨0, _⟩ => exact Nat.div_one _
      | ⟨1, _⟩ => rfl)
  have hidx : val_main_call0_v5 (F := Ideal) T (startPos (ix2 r (0 : Fin 1))) = T (ix1 r) := tgt_at T hT _
  have hl : val_main_v3 (F := Ideal) P T (ix1 r) = Ideal.log (P (ix2 r ⟨(T (ix1 r)).toNat, hlt⟩)) := by
    rw [val_main_v3_apply, val_main_v2_apply, mask_at T hT, select_one, hj]
    unfold val_main_call0_v13
    rw [gather_at, val_main_v0_apply, Ideal.hostUnary_log_def]
    refine congrArg (fun c => Ideal.log (P (ix2 r c))) (Fin.ext ?_)
    show min (val_main_call0_v5 (F := Ideal) T (startPos (ix2 r (0 : Fin 1)))).toInt.toNat 999 = (T (ix1 r)).toNat
    rw [hidx, toInt_toNat _ hw]
    omega
  rw [val_main_v10_apply, val_main_v9_apply, val_main_v8_apply, val_main_v6_apply, val_main_v4_apply,
    val_main_v5_apply, val_main_v7_apply, val_main_cst_apply, val_main_cst_0_apply, hl]
  simp only [Ideal.mulf_def, Ideal.hostNegf_def, Ideal.negf_def, Ideal.hostPowf_def, Ideal.subf_def,
    Ideal.hostUnary_exp_def, Ideal.ofBits_def, Cert.Focal.ofBits_one]
  obtain ⟨x, hx⟩ := hfin (ix2 r ⟨(T (ix1 r)).toNat, hlt⟩)
  rw [pSel_eq P T r ⟨(T (ix1 r)).toNat, hlt⟩ (eq_ofNat _ hw), hx]
  exact rowL_log_eq_rowK x

/-- The reference's summed focal terms are the focal total. -/
theorem loss_eq (P : FVec Ideal S16384x1000 .f32) (T : IVec S16384 32)
    (hfin : ∀ i, ∃ x : ℝ, P i = (x : EReal)) (hT : ∀ r : Fin 16384, InRange (T (ix1 r))) (i : S_.Idx) :
    val_main_v11 (F := Ideal) P T i = lossTotal P T := by
  rw [val_main_v11_apply, val_main_cst_1_apply, Ideal.ofBits_def, Cert.Focal.ofBits_zero, zero_add]
  unfold lossTotal
  rw [← Equiv.sum_comp (idxEquiv1 (n := 16384)).symm (val_main_v10 (F := Ideal) P T)]
  refine Finset.sum_congr rfl fun r _ => ?_
  exact row_eq P T hfin hT r

/-- The reference's column sums are the confidence totals. -/
theorem conf_eq (P : FVec Ideal S16384x1000 .f32) (j : S1000.Idx) :
    val_main_v13 (F := Ideal) P j = colTotal P (j 0) := by
  rw [val_main_v13_apply, val_main_cst_3_apply, Ideal.ofBits_def, Cert.Focal.ofBits_zero, zero_add]
  unfold colTotal
  refine Finset.sum_congr rfl fun k _ => ?_
  exact congrArg P (funext fun a => Fin.ext (by match a with | ⟨0, _⟩ => rfl | ⟨1, _⟩ => rfl))

/-- The index array of the reference's histogram: row r scatters to its own target word. -/
theorem idx_eq (T : IVec S16384 32) (hT : ∀ r : Fin 16384, InRange (T (ix1 r))) :
    val_main_v22 (F := Ideal) T = fun i => T (ix1 (i 0)) := by
  funext i
  have hi : idx_main_v22 i = ix1 (i 0) := funext fun a => Fin.ext (by match a with | ⟨0, _⟩ => rfl)
  rw [val_main_v22_apply, val_main_v21_apply, val_main_v18_apply, val_main_v20_apply, val_main_v17_apply,
    val_main_v19_apply, val_main_c_apply, val_main_c_6_apply, hi]
  exact wrap_id _ (hT (i 0))

end Cert.ReferenceIdeal.RefValue

end
-- ==== Proof.RefResult.lean ====
/-
  The reference program's result: the closing arithmetic of Closing.lean at the focal total, the confidence totals
  and the class histogram of the targets.
-/
import proofs.«427627_j19370302505551_3_alg».proof.Proof.RefValue
import proofs.«427627_j19370302505551_3_alg».proof.Proof.Closing

noncomputable section

namespace Cert.ReferenceIdeal.RefResult

open Cert.ReferenceIdeal Cert.ReferenceIdeal.Gen Cert.ReferenceIdeal.Read Cert.ReferenceIdeal.RefValue
open Cert.Focal Cert.Focal.PreDecode
open Idealize.ShloMosaic Idealize.ShloMosaic.ValueIdx

/-- The class histogram of an index array: ones scattered onto zeros. -/
def hist (idx : IVec S16384x1 32) : FVec Ideal S1000 .f32 :=
  Host.scatterAdd scatter_S1000_S16384x1_S16384_n_0_0_1
    (broadcastInDim S1000 ![] bcast_S_S1000 (constant (F := Ideal) S_ .f32 0x00000000#32)) idx
    (broadcastInDim S16384 ![] bcast_S_S16384 (constant (F := Ideal) S_ .f32 0x3F800000#32))

/-- The reference's last stage is the closing arithmetic of its three intermediate values. -/
theorem ref_read (P : FVec Ideal S16384x1000 .f32) (T : IVec S16384 32) :
    val_main_v32 (F := Ideal) P T
      = closing bcast_S_S1000 reducesTo_S1000_S_d0 h_S_ (val_main_v11 (F := Ideal) P T) (val_main_v13 (F := Ideal) P)
          (hist (val_main_v22 (F := Ideal) T)) := rfl

/-- The reference's result in terms of the table and the targets. -/
theorem ref_result (P : FVec Ideal S16384x1000 .f32) (T : IVec S16384 32)
    (hfin : ∀ i, ∃ x : ℝ, P i = (x : EReal)) (hT : ∀ r : Fin 16384, InRange (T (ix1 r))) :
    val_main_v32 (F := Ideal) P T
      = closing bcast_S_S1000 reducesTo_S1000_S_d0 h_S_ (fun _ => lossTotal P T) (fun j => colTotal P (j 0))
          (hist (fun i => T (ix1 (i 0)))) := by
  have h1 : val_main_v11 (F := Ideal) P T = fun _ => lossTotal P T := funext fun i => loss_eq P T hfin hT i
  have h2 : val_main_v13 (F := Ideal) P = fun j => colTotal P (j 0) := funext fun j => conf_eq P j
  rw [ref_read, h1, h2, idx_eq T hT]

end Cert.ReferenceIdeal.RefResult

end
-- ==== Proof.lean ====
/-
  The kernel (a focal-loss and calibration loss over probs f32[16384, 1000] and targets i32[16384], its two big
  reductions in one pallas_call on a 2 × 4 grid) against its jnp reference, over the extended reals, under the
  precondition "every probability is finite and every target is a class index, 0 ≤ t < 1000".

  Both programs end in the same closing arithmetic (Closing.lean) of three quantities:
    • the focal total  Σ_r row(p_r),  p_r the probability the target of row r names;
    • the confidence totals  Σ_r probs[r, j];
    • the class histogram of the targets.
  The kernel forms the first two tile by tile: 8 tiles of 2048 rows, four per core, accumulated across the grid in two
  scratch accumulators and written out at each core's last point (KernelPieces, KernelPayload, KernelValue), then
  added up by two host sums (KernelTail, KernelResult). It picks p_r by a masked row sum and forms
  (0 − (1 − p)) · log p; the reference gathers l = log p and forms −((1 − exp l)^1) · l. These agree at every finite p
  (RowLoss): for p > 0 by exp (log p) = p, for p ≤ 0 because both are a negative real times −∞. The kernel clips the
  targets to [0, 999] and the reference wraps negative ones and masks out-of-range ones; on class indices all three
  do nothing (PreDecode), so the gathered entry is the masked row sum's (RefValue) and the two histograms scatter by
  the same index array. Sums over the extended reals may be regrouped freely, so the tile-wise totals are the
  reference's whole-array sums.

  The frames of the two kernel programs are the generated ones; the reference's frame and run come from the run of
  its host operations (RefRun). The idealization rewrote nothing, so the preserves conjunct is trivial.
-/
import proofs.«427627_j19370302505551_3_alg».proof.Defs
import proofs.«427627_j19370302505551_3_alg».proof.Proof.Gen.Kernel
import proofs.«427627_j19370302505551_3_alg».proof.Proof.Gen.Kernel.Skeleton
import proofs.«427627_j19370302505551_3_alg».proof.Proof.Gen.Kernel.Launch
import proofs.«427627_j19370302505551_3_alg».proof.Proof.Gen.Kernel.Points
import proofs.«427627_j19370302505551_3_alg».proof.Proof.Gen.Kernel.Frame
import proofs.«427627_j19370302505551_3_alg».proof.Proof.Gen.KernelIdeal
import proofs.«427627_j19370302505551_3_alg».proof.Proof.Gen.KernelIdeal.Skeleton
import proofs.«427627_j19370302505551_3_alg».proof.Proof.Gen.KernelIdeal.Launch
import proofs.«427627_j19370302505551_3_alg».proof.Proof.Gen.KernelIdeal.Points
import proofs.«427627_j19370302505551_3_alg».proof.Proof.Gen.KernelIdeal.Frame
import proofs.«427627_j19370302505551_3_alg».proof.Proof.Gen.ReferenceIdeal
import proofs.«427627_j19370302505551_3_alg».proof.Proof.Gen.Pre_finite_inputs
import proofs.«427627_j19370302505551_3_alg».proof.Proof.KernelResult
import proofs.«427627_j19370302505551_3_alg».proof.Proof.RefResult
import Idealize.ShloMosaic.Adequacy
import Idealize.ShloMosaic.Init

noncomputable section

namespace Cert.Proof

open Idealize.ShloMosaic Idealize.ShloMosaic.ValueIdx Idealize.SL.Sem
open Cert.Focal Cert.Focal.PreDecode

/-- The two kernel programs run, fault-free, and leave their arguments unchanged: the generated frames. -/
theorem frame_k : Cert.frame_Kernel := fun m ρ _ => Cert.Kernel.Gen.frame m ρ
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The common result: the closing arithmetic at the focal total, the confidence totals and the targets' histogram. -/
def result (m : (ℓ : Loc Cert.KernelIdeal.nD Cert.KernelIdeal.τ Cert.KernelIdeal.sig) → Buf (Elt Ideal) ℓ)
    (c : Dev Cert.KernelIdeal.nD) : FVec Ideal Cert.Focal.S0 .f32 :=
  closing Cert.KernelIdeal.Facts₀.bcast_S_S1000 Cert.KernelIdeal.Facts₀.reducesTo_S1000_S_d0 Cert.KernelIdeal.Facts₀.h_S_
    (fun _ => lossTotal (Cert.KernelIdeal.KResult.tab m c) (Cert.KernelIdeal.KResult.tgt m c))
    (fun j => colTotal (Cert.KernelIdeal.KResult.tab m c) (j 0))
    (Cert.KernelIdeal.KTail.hist (fun i => Cert.KernelIdeal.KResult.tgt m c (ix1 (i 0))))

/-- Under the precondition both idealized programs end at the common result. -/
theorem algebraic : Cert.algebraic_KernelIdeal_ReferenceIdeal := by
  intro m ρ m' ρ' hpre hagree
  have hdec : ∀ c : Dev Cert.KernelIdeal.nD,
      (∀ i, ∃ x : ℝ, Cert.KernelIdeal.KResult.tab m c i = (x : EReal))
        ∧ (∀ r : Fin 16384, InRange (Cert.KernelIdeal.KResult.tgt m c (ix1 r))) :=
    fun c => of_pre _ _ (hpre c)
  refine ⟨result m, ?_, ?_⟩
  · refine (θ_run Cert.KernelIdeal.defs _ _).mono (fun r h c => ⟨?_, ?_, ?_⟩) (Cert.KernelIdeal.Gen.run_main m ρ)
    · exact ((h c).2 Cert.KernelIdeal.main_v25 (Pipeline.mem_restRefs_of Cert.KernelIdeal.main_v25 (by decide) (by decide))).trans
        (Cert.KernelIdeal.KResult.kernel_result m c (hdec c).2)
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun _ h c => ⟨(h c).1.trans ?_, (h c).2.1, (h c).2.2⟩)
      (Cert.ReferenceIdeal.Value.run (F := Ideal) m' ρ')
    rw [Cert.ReferenceIdeal.Read.val_main_v32_eq, (hagree c).1, (hagree c).2]
    exact (Cert.ReferenceIdeal.RefResult.ref_result _ _ (hdec c).1 (hdec c).2).trans rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
